-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_0)) (v2 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_0) = v1 c
          ∧ r.2.mem ((c.tc : Thread Cert.KernelIdeal.nD Cert.KernelIdeal.τ).loc Cert.KernelIdeal.main_v1_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_v20) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S2048x8192 : Shape := ⟨2, ![2048, 8192]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048x8192 : S_.BroadcastsInDim S2048x8192 (![] : Fin 0 → Fin S2048x8192.rank)
  reducesTo_S2048x8192_S_d0_1 : S2048x8192.ReducesTo [0, 1] S_

variable [Facts]

def fn_part1 {F : FTy → Type} [FloatOps F] (main_arg4 : FVec F S2048x8192 .f32) (main_v13 : IVec S_ 1) (main_v16 : IVec S2048x8192 1) : IVec S_ 1 :=
  let main_c_5 : IVec S_ 1 := constantI S_ 1 1#1
  let main_v17 : IVec S_ 1 := (fun x v => Host.reduce IntOp.andi x v reducesTo_S2048x8192_S_d0_1 h_S_) main_v16 main_c_5
  let main_v18 : IVec S_ 1 := andi main_v13 main_v17
  let main_v19 : FVec F S2048x8192 .f32 := Host.absf main_arg4
  let main_cst_6 : FVec F S_ .f32 := constant S_ .f32 0x7F800000#32
  let main_v20 : FVec F S2048x8192 .f32 := broadcastInDim S2048x8192 ![] bcast_S_S2048x8192 main_cst_6
  let main_v21 : IVec S2048x8192 1 := cmpf .olt main_v19 main_v20
  let main_c_7 : IVec S_ 1 := constantI S_ 1 1#1
  let main_v22 : IVec S_ 1 := (fun x v => Host.reduce IntOp.andi x v reducesTo_S2048x8192_S_d0_1 h_S_) main_v21 main_c_7
  let main_v23 : IVec S_ 1 := andi main_v18 main_v22
  main_v23

def fn {F : FTy → Type} [FloatOps F] (main_arg0 : FVec F S4096x2048 .f32) (main_arg1 : FVec F S4096x2048 .f32) (main_arg2 : FVec F S4096x2048 .f32) (main_arg3 : FVec F S2048x8192 .f32) (main_arg4 : FVec F S2048x8192 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  let main_v14 : FVec F S2048x8192 .f32 := Host.absf main_arg3
  let main_cst_4 : FVec F S_ .f32 := constant S_ .f32 0x7F800000#32
  let main_v15 : FVec F S2048x8192 .f32 := broadcastInDim S2048x8192 ![] bcast_S_S2048x8192 main_cst_4
  let main_v16 : IVec S2048x8192 1 := cmpf .olt main_v14 main_v15
  fn_part1 (F := F) main_arg4 main_v13 main_v16
-- ==== Kernel.lean ====
abbrev S4096x2048 : Shape := ⟨2, ![4096, 2048]⟩
abbrev S2048x8192 : Shape := ⟨2, ![2048, 8192]⟩
abbrev S4096x8192 : Shape := ⟨2, ![4096, 8192]⟩
abbrev S1024x256 : Shape := ⟨2, ![1024, 256]⟩
abbrev S256x2048 : Shape := ⟨2, ![256, 2048]⟩
abbrev S1024x2048 : Shape := ⟨2, ![1024, 2048]⟩
abbrev S128x8192 : Shape := ⟨2, ![128, 8192]⟩
abbrev S128x2048 : Shape := ⟨2, ![128, 2048]⟩

abbrev nBuf : Space → Nat
  | .hbm => 8
  | .vmem => 19
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S2048x8192, .f32⟩
  | .hbm, ⟨4, _⟩ => ⟨S2048x8192, .f32⟩
  | .hbm, ⟨5, _⟩ => ⟨S4096x8192, .f32⟩
  | .hbm, ⟨6, _⟩ => ⟨S4096x2048, .f32⟩
  | .hbm, ⟨7, _⟩ => ⟨S4096x2048, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S1024x2048, .f32⟩
  | .local _ .vmem, ⟨9, _⟩ => ⟨S1024x2048, .f32⟩
  | .local _ .vmem, ⟨10, _⟩ => ⟨S1024x2048, .f32⟩
  | .local _ .vmem, ⟨11, _⟩ => ⟨S128x8192, .f32⟩
  | .local _ .vmem, ⟨12, _⟩ => ⟨S128x8192, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | .local _ .vmem, ⟨16, _⟩ => ⟨S128x2048, .f32⟩
  | .local _ .vmem, ⟨17, _⟩ => ⟨S128x2048, .f32⟩
  | .local _ .vmem, ⟨18, _⟩ => ⟨S128x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17

abbrev nD : Nat := 1
abbrev τ : Topo := Topo.v7x

variable {F : FTy → Type} [FloatOps F]

abbrev grid0 : Pipeline.Grid := ⟨3, ![4, 4, 8], ![false, false, false]⟩

def k0_cond2 (i : grid0.Coords) : BitVec 1 :=
  let arg2 : BitVec 32 := BitVec.ofNat 32 (i 2).val
  let c7_i32 : BitVec 32 := 7#32
  let v23 : BitVec 1 := Scalar.cmpi .eq arg2 c7_i32
  let v24 : BitVec 32 := Scalar.extui v23
  let c0_i32_17 : BitVec 32 := 0#32
  let v25 : BitVec 1 := Scalar.cmpi .ne v24 c0_i32_17
  v25

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x8192 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S128x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S128x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024x256_S1024x256_0_0 : ∀ a, (![0, 0] : Fin 2 → Nat) a + S1024x256.size a ≤ S1024x256.size a
  h_S1024x256 : 0 < S1024x256.numel
  bitsLt_bf16_f32 : FTy.bits .bf16 < FTy.bits .f32
  inb_S256x2048_S256x2048_0_0 : ∀ a, (![0, 0] : Fin 2 → Nat) a + S256x2048.size a ≤ S256x2048.size a
  h_S256x2048 : 0 < S256x2048.numel
  inb_S128x8192_S128x8192_0_0 : ∀ a, (![0, 0] : Fin 2 → Nat) a + S128x8192.size a ≤ S128x8192.size a
  h_S128x8192 : 0 < S128x8192.numel
  shapeCasts_S128x8192_S128x8192 : S128x8192.ShapeCasts S128x8192
  slices_S128x8192_o0_0_S128x2048 : S128x8192.Slices ![0, 0] S128x2048
  slices_S128x8192_o0_2048_S128x2048 : S128x8192.Slices ![0, 2048] S128x2048
  slices_S128x8192_o0_4096_S128x2048 : S128x8192.Slices ![0, 4096] S128x2048
  slices_S128x8192_o0_6144_S128x2048 : S128x8192.Slices ![0, 6144] S128x2048
  inb_S128x2048_S128x2048_0_0 : ∀ a, (![0, 0] : Fin 2 → Nat) a + S128x2048.size a ≤ S128x2048.size a
  h_S128x2048 : 0 < S128x2048.numel
  dot_S1024x256_S256x2048_S1024x2048_1_0_0_1_n_n_wf : DotDims.WF S1024x256 S256x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S4096x2048.size a
  hwx0_0 : ∀ i : grid0.Coords, EltTy.bits .f32 = 32 ∨ (Rect.block (s := S4096x2048) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S4096x2048.size a
  hwx0_1 : ∀ i : grid0.Coords, EltTy.bits .f32 = 32 ∨ (Rect.block (s := S4096x2048) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x2048.size a ≤ S2048x8192.size a
  hwx0_2 : ∀ i : grid0.Coords, EltTy.bits .f32 = 32 ∨ (Rect.block (s := S2048x8192) S256x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x2048.size a ≤ S2048x8192.size a
  hwx0_3 : ∀ i : grid0.Coords, EltTy.bits .f32 = 32 ∨ (Rect.block (s := S2048x8192) S256x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x2048.size a ≤ S4096x8192.size a
  hwx0_4 : ∀ i : grid0.Coords, EltTy.bits .f32 = 32 ∨ (Rect.block (s := S4096x8192) S1024x2048.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x8192.size a ≤ S4096x8192.size a
  hwx1_0 : ∀ i : grid1.Coords, EltTy.bits .f32 = 32 ∨ (Rect.block (s := S4096x8192) S128x8192.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x2048.size a ≤ S4096x2048.size a
  hwx1_1 : ∀ i : grid1.Coords, EltTy.bits .f32 = 32 ∨ (Rect.block (s := S4096x2048) S128x2048.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x2048.size a ≤ S4096x2048.size a
  hwx1_2 : ∀ i : grid1.Coords, EltTy.bits .f32 = 32 ∨ (Rect.block (s := S4096x2048) S128x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S128x2048.size a ≤ S4096x2048.size a
  hwx1_3 : ∀ i : grid1.Coords, EltTy.bits .f32 = 32 ∨ (Rect.block (s := S4096x2048) S128x2048.size (cc1_transform_3 i) (hinb1_3 i)).WholeWords (EltTy.packing .f32)

variable [Facts₀]

def dot_S1024x256_S256x2048_S1024x2048_1_0_0_1_n_n : DotDims S1024x256 S256x2048 S1024x2048 where
  lhsContracting := [1]
  rhsContracting := [0]
  lhsNonContracting := [0]
  rhsNonContracting := [1]
  lhsBatch := []
  rhsBatch := []
  wf := dot_S1024x256_S256x2048_S1024x2048_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S256x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1024x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

abbrev win1_0 : Pipeline.Window sig grid1 :=
  Pipeline.Window.ofSpec (Memref.whole main_v0) S128x8192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S128x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1_0) S128x2048.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1_1) S128x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4096x2048 : Shape := ⟨2, ![4096, 2048]⟩
abbrev S2048x8192 : Shape := ⟨2, ![2048, 8192]⟩
abbrev S4096x8192 : Shape := ⟨2, ![4096, 8192]⟩
abbrev S_ : Shape := ⟨0, ![]⟩

abbrev nBuf : Space → Nat
  | .hbm => 60
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S2048x8192, .f32⟩
  | .hbm, ⟨4, _⟩ => ⟨S2048x8192, .f32⟩
  | .hbm, ⟨5, _⟩ => ⟨S4096x8192, .f32⟩
  | .hbm, ⟨6, _⟩ => ⟨S4096x8192, .f32⟩
  | .hbm, ⟨7, _⟩ => ⟨S4096x8192, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S_, .f32⟩
  | .hbm, ⟨13, _⟩ => ⟨S4096x2048, .f32⟩
  | .hbm, ⟨14, _⟩ => ⟨S4096x2048, .f32⟩
  | .hbm, ⟨15, _⟩ => ⟨S_, .f32⟩
  | .hbm, ⟨16, _⟩ => ⟨S4096x2048, .f32⟩
  | .hbm, ⟨17, _⟩ => ⟨S4096x2048, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S4096x2048, .f32⟩
  | .hbm, ⟨22, _⟩ => ⟨S4096x2048, .f32⟩
  | .hbm, ⟨23, _⟩ => ⟨S_, .f32⟩
  | .hbm, ⟨24, _⟩ => ⟨S4096x2048, .f32⟩
  | .hbm, ⟨25, _⟩ => ⟨S4096x2048, .f32⟩
  | .hbm, ⟨26, _⟩ => ⟨S_, .f32⟩
  | .hbm, ⟨27, _⟩ => ⟨S4096x2048, .f32⟩
  | .hbm, ⟨28, _⟩ => ⟨S4096x2048, .f32⟩
  | .hbm, ⟨29, _⟩ => ⟨S_, .f32⟩
  | .hbm, ⟨30, _⟩ => ⟨S4096x2048, .f32⟩
  | .hbm, ⟨31, _⟩ => ⟨S4096x2048, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S4096x2048, .f32⟩
  | .hbm, ⟨36, _⟩ => ⟨S4096x2048, .f32⟩
  | .hbm, ⟨37, _⟩ => ⟨S_, .f32⟩
  | .hbm, ⟨38, _⟩ => ⟨S4096x2048, .f32⟩
  | .hbm, ⟨39, _⟩ => ⟨S4096x2048, .f32⟩
  | .hbm, ⟨40, _⟩ => ⟨S4096x2048, .f32⟩
  | .hbm, ⟨41, _⟩ => ⟨S4096x2048, .f32⟩
  | .hbm, ⟨42, _⟩ => ⟨S4096x2048, .f32⟩
  | .hbm, ⟨43, _⟩ => ⟨S4096x2048, .f32⟩
  | .hbm, ⟨44, _⟩ => ⟨S_, .f32⟩
  | .hbm, ⟨45, _⟩ => ⟨S4096x2048, .f32⟩
  | .hbm, ⟨46, _⟩ => ⟨S4096x2048, .f32⟩
  | .hbm, ⟨47, _⟩ => ⟨S_, .f32⟩
  | .hbm, ⟨48, _⟩ => ⟨S4096x2048, .f32⟩
  | .hbm, ⟨49, _⟩ => ⟨S4096x2048, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S4096x2048, .f32⟩
  | .hbm, ⟨54, _⟩ => ⟨S4096x2048, .f32⟩
  | .hbm, ⟨55, _⟩ => ⟨S_, .f32⟩
  | .hbm, ⟨56, _⟩ => ⟨S4096x2048, .f32⟩
  | .hbm, ⟨57, _⟩ => ⟨S4096x2048, .f32⟩
  | .hbm, ⟨58, _⟩ => ⟨S4096x2048, .f32⟩
  | .hbm, ⟨59, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_cst_2 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_v11 : Ref sig .tc := ⟨.hbm, 25, rfl⟩
abbrev main_cst_3 : Ref sig .tc := ⟨.hbm, 26, rfl⟩
abbrev main_v12 : Ref sig .tc := ⟨.hbm, 27, rfl⟩
abbrev main_v13 : Ref sig .tc := ⟨.hbm, 28, rfl⟩
abbrev main_cst_4 : Ref sig .tc := ⟨.hbm, 29, rfl⟩
abbrev main_v14 : Ref sig .tc := ⟨.hbm, 30, rfl⟩
abbrev main_v15 : Ref sig .tc := ⟨.hbm, 31, rfl⟩
abbrev main_cst_5 : Ref sig .tc := ⟨.hbm, 32, rfl⟩
abbrev main_cst_6 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_cst_7 : Ref sig .tc := ⟨.hbm, 44, rfl⟩
abbrev main_v21 : Ref sig .tc := ⟨.hbm, 45, rfl⟩
abbrev main_v22 : Ref sig .tc := ⟨.hbm, 46, rfl⟩
abbrev main_cst_8 : Ref sig .tc := ⟨.hbm, 47, rfl⟩
abbrev main_v23 : Ref sig .tc := ⟨.hbm, 48, rfl⟩
abbrev main_v24 : Ref sig .tc := ⟨.hbm, 49, rfl⟩
abbrev main_cst_9 : Ref sig .tc := ⟨.hbm, 50, rfl⟩
abbrev main_cst_10 : Ref sig .tc := ⟨.hbm, 51, rfl⟩
abbrev main_call2_v0 : Ref sig .tc := ⟨.hbm, 52, rfl⟩
abbrev main_call2_v1 : Ref sig .tc := ⟨.hbm, 53, rfl⟩
abbrev main_call2_v2 : Ref sig .tc := ⟨.hbm, 54, rfl⟩
abbrev main_call2_v3 : Ref sig .tc := ⟨.hbm, 55, rfl⟩
abbrev main_call2_v4 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩

abbrev nD : Nat := 1
abbrev τ : Topo := Topo.v7x

variable {F : FTy → Type} [FloatOps F]

class Facts₀ : Prop where
  slices_S4096x8192_S4096x2048_0_0 : S4096x8192.Slices ![0, 0] S4096x2048
  slices_S4096x8192_S4096x2048_0_2048 : S4096x8192.Slices ![0, 2048] S4096x2048
  slices_S4096x8192_S4096x2048_0_4096 : S4096x8192.Slices ![0, 4096] S4096x2048
  slices_S4096x8192_S4096x2048_0_6144 : S4096x8192.Slices ![0, 6144] S4096x2048
  bcast_S_S4096x2048 : S_.BroadcastsInDim S4096x2048 (![] : Fin 0 → Fin S4096x2048.rank)
  dot_S4096x2048_S2048x8192_S4096x8192_1_0_0_1_n_n_wf : DotDims.WF S4096x2048 S2048x8192 S4096x8192 [1] [0] [0] [1] [] []

variable [Facts₀]

def dot_S4096x2048_S2048x8192_S4096x8192_1_0_0_1_n_n : DotDims S4096x2048 S2048x8192 S4096x8192 where
  lhsContracting := [1]
  rhsContracting := [0]
  lhsNonContracting := [0]
  rhsNonContracting := [1]
  lhsBatch := []
  rhsBatch := []
  wf := dot_S4096x2048_S2048x8192_S4096x8192_1_0_0_1_n_n_wf

class Facts : Prop extends Facts₀ where

variable [Facts]
-- ==== Proof.Kernel.Basics.lean ====
/-
  Two small facts every body triple of this program uses: the offsets of a whole rank-2 rectangle are zero, and a
  load of a whole buffer through its whole-shape rectangle reads the buffer's contents.
-/
import proofs.«115578_j75797582840479_1_alg».proof.Proof.Gen.Kernel.Launch
import proofs.«115578_j75797582840479_1_alg».proof.Proof.Gen.Kernel.Skeleton
import proofs.«115578_j75797582840479_1_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The zero offsets of a rank-2 rectangle. -/
theorem hz2 : (![0, 0] : Fin 2 → Nat) = fun _ => 0 := by funext a; fin_cases a <;> rfl

/-- A load of a whole buffer through the whole-shape rectangle at zero offsets reads its contents. -/
theorem readAt_whole {S : Shape} {e : EltTy} (mr : Memref sig .tc .vmem S e) (h : mr.IsWhole) {off : Fin S.rank → Nat}
    (hz : off = fun _ => 0) (inb : ∀ a, off a + S.size a ≤ S.size a) (X : S.Idx → Elt F e) :
    View.readAt (Elt F) mr.view (Rect.unit off S.size inb).toLoadRect (h.unread X) = X := by
  rw [View.readAt_eq_ld, h.read_unread, View.ld_unit_zero hz]

end Cert.Kernel.Hand

end
-- ==== Proof.Kernel.R0Runs.lean ====
/-
  Region 0 (the fused product `z = x·W + h·R`, accumulated over 8 blocks of the contracted axis) at one grid point.

  The grid is 4 × 4 × 8, its last coordinate `k` the block of the contracted axis. At a point the body adds the two
  products of the point's blocks onto an accumulator it keeps in scratch (`step`); at `k = 0` it first clears the
  accumulator, at `k = 7` it also copies the accumulator into the output block. So a point is in one of three cases:
  first (`k = 0`), middle (`0 < k < 7`), last (`k = 7`). This module decides the two conditions over the grid in closed
  form (a point's number mod 8), says where the output window is idle (everywhere but at the last block), and
  proves, per case, what one run of the body leaves in the accumulator and in the output block, as explicit values.
-/
import proofs.«115578_j75797582840479_1_alg».proof.Proof.Kernel.Basics

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The body's two conditions, from the grid coordinates -/

/-- `k = 0`: the accumulator is cleared first. -/
abbrev cond0_0 (i : grid0.Coords) : Prop := (Scalar.cmpi .ne (Scalar.extui (Scalar.cmpi .eq (BitVec.ofNat 32 (i 2).val) 0#32)) 0#32) = 1#1
/-- `k = 7`: the accumulator is copied to the output block. -/
abbrev cond0_1 (i : grid0.Coords) : Prop := k0_cond2 i = 1#1

/-- The first holds at the points ≡ 0 (mod 8), -/
theorem hcond0_0 : ∀ t : Fin cfg0.N, cond0_0 (grid0.coords t) ↔ t.val % 8 = 0 :=
  (by decide +kernel : ∀ t : Fin grid0.N, cond0_0 (grid0.coords t) ↔ t.val % 8 = 0)
/-- the second at the points ≡ 7 (mod 8). -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

/-- The four input windows are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Away from the last block the output window is idle and not written back; -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
/-- at the last block it is live. -/
theorem liveAt0_4 : ∀ t : Fin cfg0.N, cond0_1 (grid0.coords t) → cfg0.idle 4 (grid0.coords t) = false := by decide +kernel

/-! ## One point's work on the accumulator -/

/-- Both products of the point's blocks added onto the accumulator `s`: first `x·W`, then `h·R`. -/
def step (x0 x1 : Vec F S1024x256 .f32) (w0 w1 : Vec F S256x2048 .f32) (s : Vec F S1024x2048 .f32) : Vec F S1024x2048 .f32 :=
  k0_pay3 x1 w1 (k0_pay2 x0 w0 s)

/-! ## The body's run, per case -/

set_option maxHeartbeats 4000000 in
/-- FIRST block (`k = 0`): whatever the accumulator held, it ends at one `step` from the cleared accumulator; the
    output block is not touched. -/
theorem run_first (c : Dev nD) (E : Set ℕ) (i : grid0.Coords)
    (arg3 : Memref sig .tc .vmem S1024x256 .f32) (harg3 : arg3.IsWhole) (arg4 : Memref sig .tc .vmem S1024x256 .f32) (harg4 : arg4.IsWhole)
    (arg5 : Memref sig .tc .vmem S256x2048 .f32) (harg5 : arg5.IsWhole) (arg6 : Memref sig .tc .vmem S256x2048 .f32) (harg6 : arg6.IsWhole)
    (arg7 : Memref sig .tc .vmem S1024x2048 .f32) (harg7 : arg7.IsWhole) (arg8 : Memref sig .tc .vmem S1024x2048 .f32) (harg8 : arg8.IsWhole)
    (hc0 : cond0_0 i) (hc1 : ¬cond0_1 i)
    (x0 x1 : Vec F S1024x256 .f32) (w0 w1 : Vec F S256x2048 .f32) (K : PUnit → sProp 𝕄) :
    iprop(owns (c : Thread nD τ) arg3 fullShare x0 ∗ owns (c : Thread nD τ) arg4 fullShare x1 ∗ owns (c : Thread nD τ) arg5 fullShare w0 ∗ owns (c : Thread nD τ) arg6 fullShare w1
        ∗ (∃ d, owns (c : Thread nD τ) arg8 fullShare d)
        ∗ (iprop(owns (c : Thread nD τ) arg3 fullShare x0 ∗ owns (c : Thread nD τ) arg4 fullShare x1 ∗ owns (c : Thread nD τ) arg5 fullShare w0 ∗ owns (c : Thread nD τ) arg6 fullShare w1
            ∗ owns (c : Thread nD τ) arg8 fullShare (step x0 x1 w0 w1 (k0_pay1 (F := F)))) -∗ K ⟨⟩))
      ⊢ wp frame (wpE (defs₀ (F := F)) Variants.none c none) E (cc0_matmul_kernel i arg3 harg3 arg4 harg4 arg5 harg5 arg6 harg6 arg7 harg7 arg8 harg8) K := by
  simp only [cc0_matmul_kernel_eq_skeleton]; unfold cc0_matmul_kernel_skel
  unfold owns
  iintro ⟨⟨%f3, %hf3, H3⟩, ⟨%f4, %hf4, H4⟩, ⟨%f5, %hf5, H5⟩, ⟨%f6, %hf6, H6⟩, ⟨%d8, %f8, -, H8⟩, Hk⟩
  obtain rfl := harg3.eq_unread hf3; obtain rfl := harg4.eq_unread hf4; obtain rfl := harg5.eq_unread hf5; obtain rfl := harg6.eq_unread hf6
  sl_exec (disch := first | exact hc0 | exact hc1)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  · iexists _; isplitr
    swap; · iexact H8
    ipureintro
    sl_unfold_words
    unfold step
    have r3 := readAt_whole (F := F) arg3 harg3 hz2 inb_S1024x256_S1024x256_0_0 x0
    have r4 := readAt_whole (F := F) arg4 harg4 hz2 inb_S1024x256_S1024x256_0_0 x1
    have r5 := readAt_whole (F := F) arg5 harg5 hz2 inb_S256x2048_S256x2048_0_0 w0
    have r6 := readAt_whole (F := F) arg6 harg6 hz2 inb_S256x2048_S256x2048_0_0 w1
    refine (View.read_writes_eq_canon _ _ _ ?_).trans ?_
    · intro y
      refine ⟨_, List.mem_cons_self .., ?_⟩
      exact View.mem_set_unit_zero (S := S1024x2048) hz2 inb_S1024x2048_S1024x2048_0_0 y
    refine (View.canon_cons_unit_zero (S := S1024x2048) hz2 _ _ _).trans ?_
    rw [r3, r4, r5, r6]
    repeat rw [View.readCov_cons_toLoadRect]

set_option maxHeartbeats 4000000 in
/-- MIDDLE block (`0 < k < 7`): the accumulator at `s` ends one `step` on; the output block is not touched. -/
theorem run_middle (c : Dev nD) (E : Set ℕ) (i : grid0.Coords)
    (arg3 : Memref sig .tc .vmem S1024x256 .f32) (harg3 : arg3.IsWhole) (arg4 : Memref sig .tc .vmem S1024x256 .f32) (harg4 : arg4.IsWhole)
    (arg5 : Memref sig .tc .vmem S256x2048 .f32) (harg5 : arg5.IsWhole) (arg6 : Memref sig .tc .vmem S256x2048 .f32) (harg6 : arg6.IsWhole)
    (arg7 : Memref sig .tc .vmem S1024x2048 .f32) (harg7 : arg7.IsWhole) (arg8 : Memref sig .tc .vmem S1024x2048 .f32) (harg8 : arg8.IsWhole)
    (hc0 : ¬cond0_0 i) (hc1 : ¬cond0_1 i)
    (x0 x1 : Vec F S1024x256 .f32) (w0 w1 : Vec F S256x2048 .f32) (s : Vec F S1024x2048 .f32) (K : PUnit → sProp 𝕄) :
    iprop(owns (c : Thread nD τ) arg3 fullShare x0 ∗ owns (c : Thread nD τ) arg4 fullShare x1 ∗ owns (c : Thread nD τ) arg5 fullShare w0 ∗ owns (c : Thread nD τ) arg6 fullShare w1
        ∗ owns (c : Thread nD τ) arg8 fullShare s
        ∗ (iprop(owns (c : Thread nD τ) arg3 fullShare x0 ∗ owns (c : Thread nD τ) arg4 fullShare x1 ∗ owns (c : Thread nD τ) arg5 fullShare w0 ∗ owns (c : Thread nD τ) arg6 fullShare w1
            ∗ owns (c : Thread nD τ) arg8 fullShare (step x0 x1 w0 w1 s)) -∗ K ⟨⟩))
      ⊢ wp frame (wpE (defs₀ (F := F)) Variants.none c none) E (cc0_matmul_kernel i arg3 harg3 arg4 harg4 arg5 harg5 arg6 harg6 arg7 harg7 arg8 harg8) K := by
  simp only [cc0_matmul_kernel_eq_skeleton]; unfold cc0_matmul_kernel_skel
  unfold owns
  iintro ⟨⟨%f3, %hf3, H3⟩, ⟨%f4, %hf4, H4⟩, ⟨%f5, %hf5, H5⟩, ⟨%f6, %hf6, H6⟩, ⟨%f8, %hf8, H8⟩, Hk⟩
  obtain rfl := harg3.eq_unread hf3; obtain rfl := harg4.eq_unread hf4; obtain rfl := harg5.eq_unread hf5; obtain rfl := harg6.eq_unread hf6; obtain rfl := harg8.eq_unread hf8
  sl_exec (disch := first | exact hc0 | exact hc1)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  · iexists _; isplitr
    swap; · iexact H8
    ipureintro
    sl_unfold_words
    unfold step
    have r3 := readAt_whole (F := F) arg3 harg3 hz2 inb_S1024x256_S1024x256_0_0 x0
    have r4 := readAt_whole (F := F) arg4 harg4 hz2 inb_S1024x256_S1024x256_0_0 x1
    have r5 := readAt_whole (F := F) arg5 harg5 hz2 inb_S256x2048_S256x2048_0_0 w0
    have r6 := readAt_whole (F := F) arg6 harg6 hz2 inb_S256x2048_S256x2048_0_0 w1
    have r8 := readAt_whole (F := F) arg8 harg8 hz2 inb_S1024x2048_S1024x2048_0_0 s
    refine (View.read_writes_eq_canon _ _ _ ?_).trans ?_
    · intro y
      refine ⟨_, List.mem_cons_self .., ?_⟩
      exact View.mem_set_unit_zero (S := S1024x2048) hz2 inb_S1024x2048_S1024x2048_0_0 y
    refine (View.canon_cons_unit_zero (S := S1024x2048) hz2 _ _ _).trans ?_
    rw [r3, r4, r5, r6, r8]
    repeat rw [View.readCov_cons_toLoadRect]

set_option maxHeartbeats 4000000 in
/-- LAST block (`k = 7`): the accumulator at `s` ends one `step` on, and the output block, whatever it held, ends
    at the same contents. -/
theorem run_last (c : Dev nD) (E : Set ℕ) (i : grid0.Coords)
    (arg3 : Memref sig .tc .vmem S1024x256 .f32) (harg3 : arg3.IsWhole) (arg4 : Memref sig .tc .vmem S1024x256 .f32) (harg4 : arg4.IsWhole)
    (arg5 : Memref sig .tc .vmem S256x2048 .f32) (harg5 : arg5.IsWhole) (arg6 : Memref sig .tc .vmem S256x2048 .f32) (harg6 : arg6.IsWhole)
    (arg7 : Memref sig .tc .vmem S1024x2048 .f32) (harg7 : arg7.IsWhole) (arg8 : Memref sig .tc .vmem S1024x2048 .f32) (harg8 : arg8.IsWhole)
    (hc0 : ¬cond0_0 i) (hc1 : cond0_1 i)
    (x0 x1 : Vec F S1024x256 .f32) (w0 w1 : Vec F S256x2048 .f32) (s : Vec F S1024x2048 .f32) (K : PUnit → sProp 𝕄) :
    iprop(owns (c : Thread nD τ) arg3 fullShare x0 ∗ owns (c : Thread nD τ) arg4 fullShare x1 ∗ owns (c : Thread nD τ) arg5 fullShare w0 ∗ owns (c : Thread nD τ) arg6 fullShare w1
        ∗ (∃ d, owns (c : Thread nD τ) arg7 fullShare d) ∗ owns (c : Thread nD τ) arg8 fullShare s
        ∗ (iprop(owns (c : Thread nD τ) arg3 fullShare x0 ∗ owns (c : Thread nD τ) arg4 fullShare x1 ∗ owns (c : Thread nD τ) arg5 fullShare w0 ∗ owns (c : Thread nD τ) arg6 fullShare w1
            ∗ owns (c : Thread nD τ) arg7 fullShare (step x0 x1 w0 w1 s) ∗ owns (c : Thread nD τ) arg8 fullShare (step x0 x1 w0 w1 s)) -∗ K ⟨⟩))
      ⊢ wp frame (wpE (defs₀ (F := F)) Variants.none c none) E (cc0_matmul_kernel i arg3 harg3 arg4 harg4 arg5 harg5 arg6 harg6 arg7 harg7 arg8 harg8) K := by
  simp only [cc0_matmul_kernel_eq_skeleton]; unfold cc0_matmul_kernel_skel
  unfold owns
  iintro ⟨⟨%f3, %hf3, H3⟩, ⟨%f4, %hf4, H4⟩, ⟨%f5, %hf5, H5⟩, ⟨%f6, %hf6, H6⟩, ⟨%d7, %f7, -, H7⟩, ⟨%f8, %hf8, H8⟩, Hk⟩
  obtain rfl := harg3.eq_unread hf3; obtain rfl := harg4.eq_unread hf4; obtain rfl := harg5.eq_unread hf5; obtain rfl := harg6.eq_unread hf6; obtain rfl := harg8.eq_unread hf8
  sl_exec (disch := first | exact hc0 | exact hc1)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr
    swap; · iexact H7
    ipureintro
    sl_unfold_words
    unfold step
    have r3 := readAt_whole (F := F) arg3 harg3 hz2 inb_S1024x256_S1024x256_0_0 x0
    have r4 := readAt_whole (F := F) arg4 harg4 hz2 inb_S1024x256_S1024x256_0_0 x1
    have r5 := readAt_whole (F := F) arg5 harg5 hz2 inb_S256x2048_S256x2048_0_0 w0
    have r6 := readAt_whole (F := F) arg6 harg6 hz2 inb_S256x2048_S256x2048_0_0 w1
    have r8 := readAt_whole (F := F) arg8 harg8 hz2 inb_S1024x2048_S1024x2048_0_0 s
    refine (View.read_writes_eq_canon _ _ _ ?_).trans ?_
    · intro y
      refine ⟨_, List.mem_cons_self .., ?_⟩
      exact View.mem_set_unit_zero (S := S1024x2048) hz2 inb_S1024x2048_S1024x2048_0_0 y
    refine (View.canon_cons_unit_zero (S := S1024x2048) hz2 _ _ _).trans ?_
    rw [r3, r4, r5, r6, r8]
    repeat rw [View.readCov_cons_toLoadRect]
  · iexists _; isplitr
    swap; · iexact H8
    ipureintro
    sl_unfold_words
    unfold step
    have r3 := readAt_whole (F := F) arg3 harg3 hz2 inb_S1024x256_S1024x256_0_0 x0
    have r4 := readAt_whole (F := F) arg4 harg4 hz2 inb_S1024x256_S1024x256_0_0 x1
    have r5 := readAt_whole (F := F) arg5 harg5 hz2 inb_S256x2048_S256x2048_0_0 w0
    have r6 := readAt_whole (F := F) arg6 harg6 hz2 inb_S256x2048_S256x2048_0_0 w1
    have r8 := readAt_whole (F := F) arg8 harg8 hz2 inb_S1024x2048_S1024x2048_0_0 s
    refine (View.read_writes_eq_canon _ _ _ ?_).trans ?_
    · intro y
      refine ⟨_, List.mem_cons_self .., ?_⟩
      exact View.mem_set_unit_zero (S := S1024x2048) hz2 inb_S1024x2048_S1024x2048_0_0 y
    refine (View.canon_cons_unit_zero (S := S1024x2048) hz2 _ _ _).trans ?_
    rw [r3, r4, r5, r6, r8]
    repeat rw [View.readCov_cons_toLoadRect]

end Cert.Kernel.Hand

end
-- ==== Proof.Kernel.R0Body.lean ====
/-
  Region 0 over the whole grid: what the accumulator holds after each point, and the body's obligation to the
  pipeline at every point.

  Points are numbered row-major over the grid 4 × 4 × 8, so a point's number mod 8 is its block `k` of the contracted
  axis and the 8 points of one output block are consecutive. After point `n` the accumulator holds `accAt n`: one
  `step` from the cleared accumulator when `n ≡ 0`, one `step` from `accAt (n - 1)` otherwise — so at `n ≡ 7` it
  holds the 8 blocks' products summed, which is what that point copies into the output block. The invariant between
  points keeps the accumulator at `accAt` of the point before (before the first point: at anything), the other scratch
  memory and the generator register untouched.
-/
import proofs.«115578_j75797582840479_1_alg».proof.Proof.Kernel.R0Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region0
-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- The four input blocks of a point at their literal types: of `x`, of `h`, of `W`, of `R`. -/
abbrev xb (c : Dev nD) (t : Fin cfg0.N) : Vec F S1024x256 .f32 := iblk0 V c 0 t
abbrev hb (c : Dev nD) (t : Fin cfg0.N) : Vec F S1024x256 .f32 := iblk0 V c 1 t
abbrev wb (c : Dev nD) (t : Fin cfg0.N) : Vec F S256x2048 .f32 := iblk0 V c 2 t
abbrev rb (c : Dev nD) (t : Fin cfg0.N) : Vec F S256x2048 .f32 := iblk0 V c 3 t

/-! ## The accumulator, point by point -/

/-- What the accumulator holds after the body at point `n`. -/
def accAt (c : Dev nD) : (n : ℕ) → n < cfg0.N → Vec F S1024x2048 .f32
  | 0, hn => step (xb V c ⟨0, hn⟩) (hb V c ⟨0, hn⟩) (wb V c ⟨0, hn⟩) (rb V c ⟨0, hn⟩) (k0_pay1 (F := F))
  | n + 1, hn =>
    if (n + 1) % 8 = 0 then step (xb V c ⟨n + 1, hn⟩) (hb V c ⟨n + 1, hn⟩) (wb V c ⟨n + 1, hn⟩) (rb V c ⟨n + 1, hn⟩) (k0_pay1 (F := F))
    else step (xb V c ⟨n + 1, hn⟩) (hb V c ⟨n + 1, hn⟩) (wb V c ⟨n + 1, hn⟩) (rb V c ⟨n + 1, hn⟩) (accAt c n (Nat.lt_of_succ_lt hn))

/-- At the first block of a group the accumulator restarts from zero; -/
theorem accAt_first (c : Dev nD) (t : Fin cfg0.N) (h0 : t.val % 8 = 0) :
    accAt V c t.val t.isLt = step (xb V c t) (hb V c t) (wb V c t) (rb V c t) (k0_pay1 (F := F)) := by
  obtain ⟨n, hn⟩ := t
  cases n with
  | zero => rfl
  | succ n => exact if_pos h0

/-- at any other it goes one step on from the point before. -/
theorem accAt_next (c : Dev nD) (t : Fin cfg0.N) (h0 : ¬t.val % 8 = 0) :
    accAt V c t.val t.isLt = step (xb V c t) (hb V c t) (wb V c t) (rb V c t) (accAt V c (t.val - 1) (Nat.lt_of_le_of_lt (Nat.sub_le _ _) t.isLt)) := by
  obtain ⟨n, hn⟩ := t
  cases n with
  | zero => exact absurd (Nat.zero_mod _) h0
  | succ n => exact if_neg h0

/-! ## The invariant between points -/

/-- The accumulator's scratch buffer as a memref. -/
abbrev scM0 : Memref sig .tc .vmem S1024x2048 .f32 := Memref.whole cc0_scratch0

/-- The core's other scoped buffers that this region does not stage (the second region's staging buffers), each
    whole at some contents. -/
def others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- The pipeline's own invariant, with the accumulator split off. -/
theorem PhiA0_eq (c : Dev nD) :
    (Pipeline.ΦA spec0 c : sProp 𝕄)
      = iprop(((∃ d, owns (c : Thread nD τ) scM0 fullShare d) ∗ others (F := F) c) ∗ (∃ r, prngReg c r)) := by
  unfold Pipeline.ΦA others; rw [scopedRest0_eq]; simp only [scM0, owns_whole]; try rfl

/-- Before point `n`: at the first, the pipeline's own invariant; afterwards the accumulator at what the point before
    left, the other scoped buffers at anything, the generator register at some state. -/
def PhiS (c : Dev nD) : (n : ℕ) → n ≤ cfg0.N → sProp 𝕄
  | 0, _ => Pipeline.ΦA spec0 c
  | n + 1, hn => iprop((owns (c : Thread nD τ) scM0 fullShare (accAt V c n hn) ∗ others (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop((owns (c : Thread nD τ) scM0 fullShare (accAt V c n hn) ∗ others (F := F) c) ∗ (∃ r, prngReg c r)) := rfl

theorem PhiS_pos (c : Dev nD) (n : ℕ) (h : n ≤ cfg0.N) (hz : n ≠ 0) :
    PhiS V c n h = iprop((owns (c : Thread nD τ) scM0 fullShare (accAt V c (n - 1) (by omega)) ∗ others (F := F) c) ∗ (∃ r, prngReg c r)) := by
  cases n with
  | zero => exact absurd rfl hz
  | succ n => rfl

/-! ## The pipeline's proof data -/

/-- Region 0's proof data on core `c`: the arrays as the region finds them; after the body at point `t` each input's
    buffer at its block and the output's at the accumulator (consulted only where the block is written back);
    the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => accAt V c t.val t.isLt
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = accAt V c t.val t.isLt := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4800000 in
/-- The body at any point. The inputs' memrefs hold their blocks; the point's number mod 8 says which case it is in;
    the invariant hands the body the accumulator at what the point before left (at anything before the first point)
    and takes it back at this point's contents; away from the last block the output's buffer passes through untouched,
    at the last block it is taken back at the accumulator's contents. The core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS V c (t.val + 1) t.isLt from rfl, PhiS_succ]
  have hN : t.val < 128 := lt_of_lt_of_eq t.isLt (show cfg0.N = 128 from N_0)
  rw [show (dat0 V c).leavesExact 0 t = owns (c : Thread nD τ) (st0_0 t) fullShare ((dat0 V c).after 0 t) from by
    unfold Dat.leavesExact; rw [liveAt0_0 t], after0_0]
  rw [show (dat0 V c).leavesExact 1 t = owns (c : Thread nD τ) (st0_1 t) fullShare ((dat0 V c).after 1 t) from by
    unfold Dat.leavesExact; rw [liveAt0_1 t], after0_1]
  rw [show (dat0 V c).leavesExact 2 t = owns (c : Thread nD τ) (st0_2 t) fullShare ((dat0 V c).after 2 t) from by
    unfold Dat.leavesExact; rw [liveAt0_2 t], after0_2]
  rw [show (dat0 V c).leavesExact 3 t = owns (c : Thread nD τ) (st0_3 t) fullShare ((dat0 V c).after 3 t) from by
    unfold Dat.leavesExact; rw [liveAt0_3 t], after0_3]
  by_cases h0 : t.val % 8 = 0
  · -- the first block of a group
    have h1 : ¬t.val % 8 = 7 := by omega
    have hc0 : cond0_0 (grid0.coords t) := (hcond0_0 t).mpr h0
    have hc1 : ¬cond0_1 (grid0.coords t) := fun h => h1 ((hcond0_1 t).mp h)
    rw [Dat.leavesExact_idle (dat0 V c) 4 t (idleAt0_4 t hc1) (noFlush0_4 t hc1)]
    rw [accAt_first V c t h0]
    have hscr : (dat0 V c).Φ t.castSucc ⊢ (iprop(((∃ d, owns (c : Thread nD τ) scM0 fullShare d) ∗ others (F := F) c) ∗ (∃ r, prngReg c r)) : sProp 𝕄) := by
      by_cases hz : t.val = 0
      · rw [PhiS_castSucc V c t, PhiS_zero V c _ _ hz, PhiA0_eq]
      · rw [PhiS_castSucc V c t, PhiS_pos V c _ _ hz]
        iintro ⟨⟨HS, Hoth⟩, Hg⟩
        isplitl [HS Hoth]
        · isplitl [HS]; · iexists _; iexact HS
          iexact Hoth
        iexact Hg
    iintro ⟨HΦ, Ho, ⟨%d0, H0⟩, ⟨%d1, H1⟩, ⟨%d2, H2⟩, ⟨%d3, H3⟩, ⟨%d4, H4⟩⟩
    ihave HΦ' := hscr $$ HΦ
    icases HΦ' with ⟨⟨HS, Hoth⟩, Hg⟩
    iapply (run_first c Set.univ (grid0.coords t) _ _ _ _ _ _ _ _ _ _ _ _ hc0 hc1 (iblk0 V c 0 t) (iblk0 V c 1 t) (iblk0 V c 2 t) (iblk0 V c 3 t) _)
    isplitl [H0]; · iexact H0
    isplitl [H1]; · iexact H1
    isplitl [H2]; · iexact H2
    isplitl [H3]; · iexact H3
    isplitl [HS]; · iexact HS
    iintro ⟨H0, H1, H2, H3, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    isplitl [H2]; · iexact H2
    isplitl [H3]; · iexact H3
    iexists _; iexact H4
  · by_cases h1 : t.val % 8 = 7
    · -- the last block of a group
      have hc0 : ¬cond0_0 (grid0.coords t) := fun h => h0 ((hcond0_0 t).mp h)
      have hc1 : cond0_1 (grid0.coords t) := (hcond0_1 t).mpr h1
      have hz : t.val ≠ 0 := by omega
      rw [show (dat0 V c).leavesExact 4 t = owns (c : Thread nD τ) (st0_4 t) fullShare ((dat0 V c).after 4 t) from by
        unfold Dat.leavesExact; rw [liveAt0_4 t hc1], after0_4]
      rw [accAt_next V c t h0, PhiS_castSucc V c t, PhiS_pos V c _ _ hz]
      iintro ⟨⟨⟨HS, Hoth⟩, Hg⟩, Ho, ⟨%d0, H0⟩, ⟨%d1, H1⟩, ⟨%d2, H2⟩, ⟨%d3, H3⟩, ⟨%d4, H4⟩⟩
      iapply (run_last c Set.univ (grid0.coords t) _ _ _ _ _ _ _ _ _ _ _ _ hc0 hc1 (iblk0 V c 0 t) (iblk0 V c 1 t) (iblk0 V c 2 t) (iblk0 V c 3 t) _ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      isplitl [H3]; · iexact H3
      iexact H4
    · -- a middle block
      have hc0 : ¬cond0_0 (grid0.coords t) := fun h => h0 ((hcond0_0 t).mp h)
      have hc1 : ¬cond0_1 (grid0.coords t) := fun h => h1 ((hcond0_1 t).mp h)
      have hz : t.val ≠ 0 := by omega
      rw [Dat.leavesExact_idle (dat0 V c) 4 t (idleAt0_4 t hc1) (noFlush0_4 t hc1)]
      rw [accAt_next V c t h0, PhiS_castSucc V c t, PhiS_pos V c _ _ hz]
      iintro ⟨⟨⟨HS, Hoth⟩, Hg⟩, Ho, ⟨%d0, H0⟩, ⟨%d1, H1⟩, ⟨%d2, H2⟩, ⟨%d3, H3⟩, ⟨%d4, H4⟩⟩
      iapply (run_middle c Set.univ (grid0.coords t) _ _ _ _ _ _ _ _ _ _ _ _ hc0 hc1 (iblk0 V c 0 t) (iblk0 V c 1 t) (iblk0 V c 2 t) (iblk0 V c 3 t) _ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]

/-- After the last point the invariant gives the pipeline's own back: the accumulator's contents are forgotten. -/
theorem hout0 (c : Dev nD) : (dat0 V c).Φ (Fin.last cfg0.N) ⊢ Pipeline.ΦA spec0 c := by
  have ht : (Fin.last cfg0.N).val ≠ 0 := by rw [Fin.val_last]; have : cfg0.N = 128 := N_0; omega
  rw [show (dat0 V c).Φ (Fin.last cfg0.N) = PhiS V c (Fin.last cfg0.N).val (Nat.le_of_lt_succ (Fin.last cfg0.N).isLt) from rfl,
    PhiS_pos V c _ _ ht, PhiA0_eq]
  iintro ⟨⟨HS, Hoth⟩, Hg⟩
  isplitl [HS Hoth]
  · isplitl [HS]; · iexists _; iexact HS
    iexact Hoth
  iexact Hg

end Region0

end Cert.Kernel.Hand

end
-- ==== Proof.Kernel.R1Body.lean ====
/-
  Region 1 (the gates): at each of its 32 grid points the body reads a 128-row block of the pre-activations `z`
  (all four column bands) and the matching block of the old cell state, and writes the new hidden state's block and
  the new cell state's block, each whole. Nothing is kept between points and no window is ever idle, so the proof data
  name each output's buffer after the body directly: the body's two stored values of the point's two input blocks.
-/
import proofs.«115578_j75797582840479_1_alg».proof.Proof.Kernel.Basics

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region1
-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's triple -/

set_option maxHeartbeats 4000000 in
/-- The body on whole staging memrefs, the inputs' at contents `z` (pre-activations) and `c0` (old cell state), the
    outputs' at anything: it runs to the continuation holding the inputs' as they were, the first output's at the new
    hidden state `k1_pay3 z c0` and the second's at the new cell state `k1_pay2 z c0`. -/
theorem sound_kernel1 (c : Dev nD) (E : Set ℕ) (i : grid1.Coords)
    (arg1 : Memref sig .tc .vmem S128x8192 .f32) (harg1 : arg1.IsWhole) (arg2 : Memref sig .tc .vmem S128x2048 .f32) (harg2 : arg2.IsWhole)
    (arg3 : Memref sig .tc .vmem S128x2048 .f32) (harg3 : arg3.IsWhole) (arg4 : Memref sig .tc .vmem S128x2048 .f32) (harg4 : arg4.IsWhole)
    (z : Vec F S128x8192 .f32) (c0 : Vec F S128x2048 .f32) (K : PUnit → sProp 𝕄) :
    iprop(owns (c : Thread nD τ) arg1 fullShare z ∗ owns (c : Thread nD τ) arg2 fullShare c0
        ∗ (∃ d, owns (c : Thread nD τ) arg3 fullShare d) ∗ (∃ d, owns (c : Thread nD τ) arg4 fullShare d)
        ∗ (iprop(owns (c : Thread nD τ) arg1 fullShare z ∗ owns (c : Thread nD τ) arg2 fullShare c0
            ∗ owns (c : Thread nD τ) arg3 fullShare (k1_pay3 z c0) ∗ owns (c : Thread nD τ) arg4 fullShare (k1_pay2 z c0)) -∗ K ⟨⟩))
      ⊢ wp frame (wpE (defs₀ (F := F)) Variants.none c none) E (cc1_gate_kernel i arg1 harg1 arg2 harg2 arg3 harg3 arg4 harg4) K := by
  simp only [cc1_gate_kernel_eq_skeleton]; unfold cc1_gate_kernel_skel
  simp only [k1_part1_eq_skeleton]
  unfold owns
  iintro ⟨⟨%f1, %hf1, H1⟩, ⟨%f2, %hf2, H2⟩, ⟨%d3, %f3, -, H3⟩, ⟨%d4, %f4, -, H4⟩, Hk⟩
  obtain rfl := harg1.eq_unread hf1; obtain rfl := harg2.eq_unread hf2
  sl_exec
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr
    swap; · iexact H3
    ipureintro
    sl_unfold_words
    have r1 := readAt_whole (F := F) arg1 harg1 hz2 inb_S128x8192_S128x8192_0_0 z
    have r2 := readAt_whole (F := F) arg2 harg2 hz2 inb_S128x2048_S128x2048_0_0 c0
    refine (View.read_writes_eq_canon _ _ _ ?_).trans ?_
    · intro y
      refine ⟨_, List.mem_cons_self .., ?_⟩
      exact View.mem_set_unit_zero (S := S128x2048) hz2 inb_S128x2048_S128x2048_0_0 y
    refine (View.canon_cons_unit_zero (S := S128x2048) hz2 _ _ _).trans ?_
    rw [r1, r2]
  · iexists _; isplitr
    swap; · iexact H4
    ipureintro
    sl_unfold_words
    have r1 := readAt_whole (F := F) arg1 harg1 hz2 inb_S128x8192_S128x8192_0_0 z
    have r2 := readAt_whole (F := F) arg2 harg2 hz2 inb_S128x2048_S128x2048_0_0 c0
    refine (View.read_writes_eq_canon _ _ _ ?_).trans ?_
    · intro y
      refine ⟨_, List.mem_cons_self .., ?_⟩
      exact View.mem_set_unit_zero (S := S128x2048) hz2 inb_S128x2048_S128x2048_0_0 y
    refine (View.canon_cons_unit_zero (S := S128x2048) hz2 _ _ _).trans ?_
    rw [r1, r2]

/-! ## The pipeline's proof data -/

/-- Region 1's proof data on core `c`: the arrays as the region finds them; after the body at point `t` each input's
    buffer at its block, the outputs' at the body's two stored values of those blocks; the pipeline's own invariant
    (the scoped rest and the generator register, untouched); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay3 (iblk1 V c 0 t) (iblk1 V c 1 t)
    | ⟨3, _⟩ => k1_pay2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = k1_pay3 (iblk1 V c 0 t) (iblk1 V c 1 t) := by dsimp only [dat1]
theorem after1_3 (c : Dev nD) (t : Fin cfg1.N) : (dat1 V c).after 3 t = k1_pay2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

set_option maxHeartbeats 4000000 in
/-- The body at any point: the inputs' memrefs hold their blocks, so the triple applies; the invariant and the core's
    `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Hand

end
-- ==== Proof.Kernel.Run.lean ====
/-
  The whole program's run: @main is the two kernel regions in order, nothing between them.

  Between the items core `c` holds every unscoped buffer whole, at contents that fold from the launch memory:
  `W0` at launch; `W1` after region 0, which may change only the pre-activation array (its output window's array), left
  at what its write-backs fold to; `W2` after region 1, which may change only the two result arrays. No region writes an
  argument (each argument is read through an input window or bypasses the region), so every argument reads back to its
  launch contents through the fold; the two results read back as region 1's final arrays, and region 1's view of the
  pre-activations is region 0's final array.
-/
import proofs.«115578_j75797582840479_1_alg».proof.Proof.Kernel.R0Body
import proofs.«115578_j75797582840479_1_alg».proof.Proof.Kernel.R1Body
import Idealize.ShloMosaic.Lib.Pipeline.RegionsLoop

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch (region 0's entry). -/
abbrev W0 : Dev nD → Valuation τ sig (Elt F) := fun c b => m ((c : Dev nD), b)
/-- The same read at the TensorCore's references. -/
abbrev V0 : (c : Dev nD) → (b : Ref sig .tc) → Buf (Elt F) ((c : Thread nD τ).loc b) := fun c b => W0 m c b
/-- At region 0's exit (region 1's entry): its arrays at what the pipeline leaves, every other buffer as entered. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- At region 1's exit: its arrays at what the pipeline leaves, every other buffer as entered. -/
def W2 (c : Dev nD) : Valuation τ sig (Elt F) :=
  Pipeline.withArrays spec1 c (W1 m c) fun w => (dat1 (V1 m) c).arrAt w cfg1.N
theorem W2_arr (c : Dev nD) (w : Fin cfg1.W) :
    W2 m c (Proc.devRef .tc (Pipeline.arrRef spec1 w)) = (dat1 (V1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
abbrev V2 : (c : Dev nD) → (b : Ref sig .tc) → Buf (Elt F) ((c : Thread nD τ).loc b) := fun c b => W2 m c b
theorem hF1 (c : Dev nD) (w : Fin cfg1.W) : (dat1 (V1 m) c).arrAt w cfg1.N = V2 m c (Pipeline.arrRef spec1 w) :=
  (W2_arr m c w).symm
theorem hrest1 (c : Dev nD) : ∀ b, b ∉ Finset.univ.image (Pipeline.arrRef spec1) → V2 m c b = V1 m c b :=
  fun b hb => W2_of_ne m c b fun w e => hb (Finset.mem_image.mpr ⟨w, Finset.mem_univ _, e⟩)

/-! ### What the second region finds -/

/-- Region 1's pre-activation array is what region 0 left in it; -/
theorem V1_z (c : Dev nD) : V1 m c main_v0 = (dat0 (V0 m) c).arrAt 4 cfg0.N := W1_arr m c 4
/-- its old cell state is the argument as launched. -/
theorem V1_c (c : Dev nD) : V1 m c main_arg2 = m ((c : Thread nD τ).loc main_arg2) := W1_of_ne m c main_arg2 (by decide)

/-! ### The arguments end as launched -/

theorem W2_main_arg0 (c : Dev nD) : W2 m c (Proc.devRef .tc main_arg0) = m ((c : Thread nD τ).loc main_arg0) :=
  calc W2 m c (Proc.devRef .tc main_arg0)
    _ = W1 m c (Proc.devRef .tc main_arg0) := W2_of_ne m c main_arg0 (by decide)
    _ = W0 m c (Proc.devRef .tc main_arg0) := (W1_arr m c 0).trans (((dat0 (V0 m) c).arrAt_in 0 rfl _).trans (A_eq0 (V0 m) c 0))
    _ = m ((c : Thread nD τ).loc main_arg0) := rfl
theorem W2_main_arg1 (c : Dev nD) : W2 m c (Proc.devRef .tc main_arg1) = m ((c : Thread nD τ).loc main_arg1) :=
  calc W2 m c (Proc.devRef .tc main_arg1)
    _ = W1 m c (Proc.devRef .tc main_arg1) := W2_of_ne m c main_arg1 (by decide)
    _ = W0 m c (Proc.devRef .tc main_arg1) := (W1_arr m c 1).trans (((dat0 (V0 m) c).arrAt_in 1 rfl _).trans (A_eq0 (V0 m) c 1))
    _ = m ((c : Thread nD τ).loc main_arg1) := rfl
theorem W2_main_arg2 (c : Dev nD) : W2 m c (Proc.devRef .tc main_arg2) = m ((c : Thread nD τ).loc main_arg2) :=
  calc W2 m c (Proc.devRef .tc main_arg2)
    _ = W1 m c (Proc.devRef .tc main_arg2) := (W2_arr m c 1).trans (((dat1 (V1 m) c).arrAt_in 1 rfl _).trans (A_eq1 (V1 m) c 1))
    _ = W0 m c (Proc.devRef .tc main_arg2) := W1_of_ne m c main_arg2 (by decide)
    _ = m ((c : Thread nD τ).loc main_arg2) := rfl
theorem W2_main_arg3 (c : Dev nD) : W2 m c (Proc.devRef .tc main_arg3) = m ((c : Thread nD τ).loc main_arg3) :=
  calc W2 m c (Proc.devRef .tc main_arg3)
    _ = W1 m c (Proc.devRef .tc main_arg3) := W2_of_ne m c main_arg3 (by decide)
    _ = W0 m c (Proc.devRef .tc main_arg3) := (W1_arr m c 2).trans (((dat0 (V0 m) c).arrAt_in 2 rfl _).trans (A_eq0 (V0 m) c 2))
    _ = m ((c : Thread nD τ).loc main_arg3) := rfl
theorem W2_main_arg4 (c : Dev nD) : W2 m c (Proc.devRef .tc main_arg4) = m ((c : Thread nD τ).loc main_arg4) :=
  calc W2 m c (Proc.devRef .tc main_arg4)
    _ = W1 m c (Proc.devRef .tc main_arg4) := W2_of_ne m c main_arg4 (by decide)
    _ = W0 m c (Proc.devRef .tc main_arg4) := (W1_arr m c 3).trans (((dat0 (V0 m) c).arrAt_in 3 rfl _).trans (A_eq0 (V0 m) c 3))
    _ = m ((c : Thread nD τ).loc main_arg4) := rfl

/-! ## The proof data family and the thread state -/

abbrev adm : (p : Fin 2) → (pcfgs (F := F) p).Adm := fun p => (cfgs p).toPCfg_adm
/-- Every region's proof data, each at its region's entry contents (a literal match on the region). -/
def pdats : (p : Fin 2) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V1 m) c
abbrev 𝒱₀ : Variants := Variants.none
abbrev L : GSem nD τ sig → Finset Unit := fun _ => ∅
abbrev lv : GSem nD τ sig → Unit → ℕ := fun _ _ => 0
/-- What rides beside the buffers: the generator register at some state, and the core owing nothing. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W2 m c) ∗ ∃ r, prngReg c r)

/-! ## The regions as segments -/

set_option backward.isDefEq.respectTransparency.types false in
/-- REGION 0 over the thread state: entered from every unscoped buffer at `W0`, left at `W1`. Its arrays are
    split out of the unscoped buffers and put back at the exit contents; the generator register and the scoped rest go
    into the region's invariant and come back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (hout0 (V0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W1`, left at `W2`. Its arrays are
    split out of the unscoped buffers and put back at the exit contents; the generator register and the scoped rest go
    into the region's invariant and come back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V1 m c) (V2 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .region (reg0 m), .region (reg1 m) ]

theorem main_run (c : Dev nD) : main (F := F) c = Pipeline.Seg.run (segs m) := (main_chain c).trans (by chain_rfl)

set_option backward.isDefEq.respectTransparency.types false in
/-- THE RUN. From any memory with zero counters every weakly fair execution of @main terminates, nothing faulting,
    and every final state holds every unscoped buffer at the last fold `W2`. -/
theorem run_main : θ_run defs (onTc (τ := τ) (main (F := F))) ⟨m, fun _ => 0, ρ⟩
    (fun r => ∀ c : Dev nD, ∀ b ∈ Pipeline.ucRefs τ sig, r.2.mem (((c : Thread nD τ)).1, b) = W2 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m c b)
    (hfin := fun c s' => by
      iintro ⟨⟨Hh, -⟩, HSI⟩
      unfold StableHlo.held
      imodintro
      iapply (pointsTo_read_all (Pipeline.ucRefs τ sig) (fun b => (((c : Thread nD τ)).1, b)) (W2 m c) s')
      isplitl [Hh] <;> iassumption)
    (hQ := fun s h c => h c)

/-- THE FRAME: every argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W2_main_arg0 m c),
     (h c _ (mem_uc main_arg1 (by decide))).trans (W2_main_arg1 m c),
     (h c _ (mem_uc main_arg2 (by decide))).trans (W2_main_arg2 m c),
     (h c _ (mem_uc main_arg3 (by decide))).trans (W2_main_arg3 m c),
     (h c _ (mem_uc main_arg4 (by decide))).trans (W2_main_arg4 m c)⟩) (run_main m ρ)

/-- THE RUN WITH ITS RESULTS NAMED: the two result arrays end at region 1's final arrays, the arguments as launched. -/
theorem run_values : θ_run defs (onTc (τ := τ) (main (F := F))) ⟨m, fun _ => 0, ρ⟩ (fun r => ∀ c : Dev nD,
      r.2.mem ((c.tc : Thread nD τ).loc main_v1_0) = (dat1 (V1 m) c).arrAt 2 cfg1.N
      ∧ r.2.mem ((c.tc : Thread nD τ).loc main_v1_1) = (dat1 (V1 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_v1_0 (by decide))).trans (W2_arr m c 2),
     (h c _ (mem_uc main_v1_1 (by decide))).trans (W2_arr m c 3),
     (h c _ (mem_uc main_arg0 (by decide))).trans (W2_main_arg0 m c),
     (h c _ (mem_uc main_arg1 (by decide))).trans (W2_main_arg1 m c),
     (h c _ (mem_uc main_arg2 (by decide))).trans (W2_main_arg2 m c),
     (h c _ (mem_uc main_arg3 (by decide))).trans (W2_main_arg3 m c),
     (h c _ (mem_uc main_arg4 (by decide))).trans (W2_main_arg4 m c)⟩) (run_main m ρ)

end Cert.Kernel.Hand

end
-- ==== Proof.KernelIdeal.Basics.lean ====
/-
  Two small facts every body triple of this program uses: the offsets of a whole rank-2 rectangle are zero, and a
  load of a whole buffer through its whole-shape rectangle reads the buffer's contents.
-/
import proofs.«115578_j75797582840479_1_alg».proof.Proof.Gen.KernelIdeal.Launch
import proofs.«115578_j75797582840479_1_alg».proof.Proof.Gen.KernelIdeal.Skeleton
import proofs.«115578_j75797582840479_1_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The zero offsets of a rank-2 rectangle. -/
theorem hz2 : (![0, 0] : Fin 2 → Nat) = fun _ => 0 := by funext a; fin_cases a <;> rfl

/-- A load of a whole buffer through the whole-shape rectangle at zero offsets reads its contents. -/
theorem readAt_whole {S : Shape} {e : EltTy} (mr : Memref sig .tc .vmem S e) (h : mr.IsWhole) {off : Fin S.rank → Nat}
    (hz : off = fun _ => 0) (inb : ∀ a, off a + S.size a ≤ S.size a) (X : S.Idx → Elt F e) :
    View.readAt (Elt F) mr.view (Rect.unit off S.size inb).toLoadRect (h.unread X) = X := by
  rw [View.readAt_eq_ld, h.read_unread, View.ld_unit_zero hz]

end Cert.KernelIdeal.Hand

end
-- ==== Proof.KernelIdeal.R0Runs.lean ====
/-
  Region 0 (the fused product `z = x·W + h·R`, accumulated over 8 blocks of the contracted axis) at one grid point.

  The grid is 4 × 4 × 8, its last coordinate `k` the block of the contracted axis. At a point the body adds the two
  products of the point's blocks onto an accumulator it keeps in scratch (`step`); at `k = 0` it first clears the
  accumulator, at `k = 7` it also copies the accumulator into the output block. So a point is in one of three cases:
  first (`k = 0`), middle (`0 < k < 7`), last (`k = 7`). This module decides the two conditions over the grid in closed
  form (a point's number mod 8), says where the output window is idle (everywhere but at the last block), and
  proves, per case, what one run of the body leaves in the accumulator and in the output block, as explicit values.
-/
import proofs.«115578_j75797582840479_1_alg».proof.Proof.KernelIdeal.Basics

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The body's two conditions, from the grid coordinates -/

/-- `k = 0`: the accumulator is cleared first. -/
abbrev cond0_0 (i : grid0.Coords) : Prop := (Scalar.cmpi .ne (Scalar.extui (Scalar.cmpi .eq (BitVec.ofNat 32 (i 2).val) 0#32)) 0#32) = 1#1
/-- `k = 7`: the accumulator is copied to the output block. -/
abbrev cond0_1 (i : grid0.Coords) : Prop := k0_cond2 i = 1#1

/-- The first holds at the points ≡ 0 (mod 8), -/
theorem hcond0_0 : ∀ t : Fin cfg0.N, cond0_0 (grid0.coords t) ↔ t.val % 8 = 0 :=
  (by decide +kernel : ∀ t : Fin grid0.N, cond0_0 (grid0.coords t) ↔ t.val % 8 = 0)
/-- the second at the points ≡ 7 (mod 8). -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

/-- The four input windows are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Away from the last block the output window is idle and not written back; -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
/-- at the last block it is live. -/
theorem liveAt0_4 : ∀ t : Fin cfg0.N, cond0_1 (grid0.coords t) → cfg0.idle 4 (grid0.coords t) = false := by decide +kernel

/-! ## One point's work on the accumulator -/

/-- Both products of the point's blocks added onto the accumulator `s`: first `x·W`, then `h·R`. -/
def step (x0 x1 : Vec F S1024x256 .f32) (w0 w1 : Vec F S256x2048 .f32) (s : Vec F S1024x2048 .f32) : Vec F S1024x2048 .f32 :=
  k0_pay3 x1 w1 (k0_pay2 x0 w0 s)

/-! ## The body's run, per case -/

set_option maxHeartbeats 4000000 in
/-- FIRST block (`k = 0`): whatever the accumulator held, it ends at one `step` from the cleared accumulator; the
    output block is not touched. -/
theorem run_first (c : Dev nD) (E : Set ℕ) (i : grid0.Coords)
    (arg3 : Memref sig .tc .vmem S1024x256 .f32) (harg3 : arg3.IsWhole) (arg4 : Memref sig .tc .vmem S1024x256 .f32) (harg4 : arg4.IsWhole)
    (arg5 : Memref sig .tc .vmem S256x2048 .f32) (harg5 : arg5.IsWhole) (arg6 : Memref sig .tc .vmem S256x2048 .f32) (harg6 : arg6.IsWhole)
    (arg7 : Memref sig .tc .vmem S1024x2048 .f32) (harg7 : arg7.IsWhole) (arg8 : Memref sig .tc .vmem S1024x2048 .f32) (harg8 : arg8.IsWhole)
    (hc0 : cond0_0 i) (hc1 : ¬cond0_1 i)
    (x0 x1 : Vec F S1024x256 .f32) (w0 w1 : Vec F S256x2048 .f32) (K : PUnit → sProp 𝕄) :
    iprop(owns (c : Thread nD τ) arg3 fullShare x0 ∗ owns (c : Thread nD τ) arg4 fullShare x1 ∗ owns (c : Thread nD τ) arg5 fullShare w0 ∗ owns (c : Thread nD τ) arg6 fullShare w1
        ∗ (∃ d, owns (c : Thread nD τ) arg8 fullShare d)
        ∗ (iprop(owns (c : Thread nD τ) arg3 fullShare x0 ∗ owns (c : Thread nD τ) arg4 fullShare x1 ∗ owns (c : Thread nD τ) arg5 fullShare w0 ∗ owns (c : Thread nD τ) arg6 fullShare w1
            ∗ owns (c : Thread nD τ) arg8 fullShare (step x0 x1 w0 w1 (k0_pay1 (F := F)))) -∗ K ⟨⟩))
      ⊢ wp frame (wpE (defs₀ (F := F)) Variants.none c none) E (cc0_matmul_kernel i arg3 harg3 arg4 harg4 arg5 harg5 arg6 harg6 arg7 harg7 arg8 harg8) K := by
  simp only [cc0_matmul_kernel_eq_skeleton]; unfold cc0_matmul_kernel_skel
  unfold owns
  iintro ⟨⟨%f3, %hf3, H3⟩, ⟨%f4, %hf4, H4⟩, ⟨%f5, %hf5, H5⟩, ⟨%f6, %hf6, H6⟩, ⟨%d8, %f8, -, H8⟩, Hk⟩
  obtain rfl := harg3.eq_unread hf3; obtain rfl := harg4.eq_unread hf4; obtain rfl := harg5.eq_unread hf5; obtain rfl := harg6.eq_unread hf6
  sl_exec (disch := first | exact hc0 | exact hc1)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  · iexists _; isplitr
    swap; · iexact H8
    ipureintro
    sl_unfold_words
    unfold step
    have r3 := readAt_whole (F := F) arg3 harg3 hz2 inb_S1024x256_S1024x256_0_0 x0
    have r4 := readAt_whole (F := F) arg4 harg4 hz2 inb_S1024x256_S1024x256_0_0 x1
    have r5 := readAt_whole (F := F) arg5 harg5 hz2 inb_S256x2048_S256x2048_0_0 w0
    have r6 := readAt_whole (F := F) arg6 harg6 hz2 inb_S256x2048_S256x2048_0_0 w1
    refine (View.read_writes_eq_canon _ _ _ ?_).trans ?_
    · intro y
      refine ⟨_, List.mem_cons_self .., ?_⟩
      exact View.mem_set_unit_zero (S := S1024x2048) hz2 inb_S1024x2048_S1024x2048_0_0 y
    refine (View.canon_cons_unit_zero (S := S1024x2048) hz2 _ _ _).trans ?_
    rw [r3, r4, r5, r6]
    repeat rw [View.readCov_cons_toLoadRect]

set_option maxHeartbeats 4000000 in
/-- MIDDLE block (`0 < k < 7`): the accumulator at `s` ends one `step` on; the output block is not touched. -/
theorem run_middle (c : Dev nD) (E : Set ℕ) (i : grid0.Coords)
    (arg3 : Memref sig .tc .vmem S1024x256 .f32) (harg3 : arg3.IsWhole) (arg4 : Memref sig .tc .vmem S1024x256 .f32) (harg4 : arg4.IsWhole)
    (arg5 : Memref sig .tc .vmem S256x2048 .f32) (harg5 : arg5.IsWhole) (arg6 : Memref sig .tc .vmem S256x2048 .f32) (harg6 : arg6.IsWhole)
    (arg7 : Memref sig .tc .vmem S1024x2048 .f32) (harg7 : arg7.IsWhole) (arg8 : Memref sig .tc .vmem S1024x2048 .f32) (harg8 : arg8.IsWhole)
    (hc0 : ¬cond0_0 i) (hc1 : ¬cond0_1 i)
    (x0 x1 : Vec F S1024x256 .f32) (w0 w1 : Vec F S256x2048 .f32) (s : Vec F S1024x2048 .f32) (K : PUnit → sProp 𝕄) :
    iprop(owns (c : Thread nD τ) arg3 fullShare x0 ∗ owns (c : Thread nD τ) arg4 fullShare x1 ∗ owns (c : Thread nD τ) arg5 fullShare w0 ∗ owns (c : Thread nD τ) arg6 fullShare w1
        ∗ owns (c : Thread nD τ) arg8 fullShare s
        ∗ (iprop(owns (c : Thread nD τ) arg3 fullShare x0 ∗ owns (c : Thread nD τ) arg4 fullShare x1 ∗ owns (c : Thread nD τ) arg5 fullShare w0 ∗ owns (c : Thread nD τ) arg6 fullShare w1
            ∗ owns (c : Thread nD τ) arg8 fullShare (step x0 x1 w0 w1 s)) -∗ K ⟨⟩))
      ⊢ wp frame (wpE (defs₀ (F := F)) Variants.none c none) E (cc0_matmul_kernel i arg3 harg3 arg4 harg4 arg5 harg5 arg6 harg6 arg7 harg7 arg8 harg8) K := by
  simp only [cc0_matmul_kernel_eq_skeleton]; unfold cc0_matmul_kernel_skel
  unfold owns
  iintro ⟨⟨%f3, %hf3, H3⟩, ⟨%f4, %hf4, H4⟩, ⟨%f5, %hf5, H5⟩, ⟨%f6, %hf6, H6⟩, ⟨%f8, %hf8, H8⟩, Hk⟩
  obtain rfl := harg3.eq_unread hf3; obtain rfl := harg4.eq_unread hf4; obtain rfl := harg5.eq_unread hf5; obtain rfl := harg6.eq_unread hf6; obtain rfl := harg8.eq_unread hf8
  sl_exec (disch := first | exact hc0 | exact hc1)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  · iexists _; isplitr
    swap; · iexact H8
    ipureintro
    sl_unfold_words
    unfold step
    have r3 := readAt_whole (F := F) arg3 harg3 hz2 inb_S1024x256_S1024x256_0_0 x0
    have r4 := readAt_whole (F := F) arg4 harg4 hz2 inb_S1024x256_S1024x256_0_0 x1
    have r5 := readAt_whole (F := F) arg5 harg5 hz2 inb_S256x2048_S256x2048_0_0 w0
    have r6 := readAt_whole (F := F) arg6 harg6 hz2 inb_S256x2048_S256x2048_0_0 w1
    have r8 := readAt_whole (F := F) arg8 harg8 hz2 inb_S1024x2048_S1024x2048_0_0 s
    refine (View.read_writes_eq_canon _ _ _ ?_).trans ?_
    · intro y
      refine ⟨_, List.mem_cons_self .., ?_⟩
      exact View.mem_set_unit_zero (S := S1024x2048) hz2 inb_S1024x2048_S1024x2048_0_0 y
    refine (View.canon_cons_unit_zero (S := S1024x2048) hz2 _ _ _).trans ?_
    rw [r3, r4, r5, r6, r8]
    repeat rw [View.readCov_cons_toLoadRect]

set_option maxHeartbeats 4000000 in
/-- LAST block (`k = 7`): the accumulator at `s` ends one `step` on, and the output block, whatever it held, ends
    at the same contents. -/
theorem run_last (c : Dev nD) (E : Set ℕ) (i : grid0.Coords)
    (arg3 : Memref sig .tc .vmem S1024x256 .f32) (harg3 : arg3.IsWhole) (arg4 : Memref sig .tc .vmem S1024x256 .f32) (harg4 : arg4.IsWhole)
    (arg5 : Memref sig .tc .vmem S256x2048 .f32) (harg5 : arg5.IsWhole) (arg6 : Memref sig .tc .vmem S256x2048 .f32) (harg6 : arg6.IsWhole)
    (arg7 : Memref sig .tc .vmem S1024x2048 .f32) (harg7 : arg7.IsWhole) (arg8 : Memref sig .tc .vmem S1024x2048 .f32) (harg8 : arg8.IsWhole)
    (hc0 : ¬cond0_0 i) (hc1 : cond0_1 i)
    (x0 x1 : Vec F S1024x256 .f32) (w0 w1 : Vec F S256x2048 .f32) (s : Vec F S1024x2048 .f32) (K : PUnit → sProp 𝕄) :
    iprop(owns (c : Thread nD τ) arg3 fullShare x0 ∗ owns (c : Thread nD τ) arg4 fullShare x1 ∗ owns (c : Thread nD τ) arg5 fullShare w0 ∗ owns (c : Thread nD τ) arg6 fullShare w1
        ∗ (∃ d, owns (c : Thread nD τ) arg7 fullShare d) ∗ owns (c : Thread nD τ) arg8 fullShare s
        ∗ (iprop(owns (c : Thread nD τ) arg3 fullShare x0 ∗ owns (c : Thread nD τ) arg4 fullShare x1 ∗ owns (c : Thread nD τ) arg5 fullShare w0 ∗ owns (c : Thread nD τ) arg6 fullShare w1
            ∗ owns (c : Thread nD τ) arg7 fullShare (step x0 x1 w0 w1 s) ∗ owns (c : Thread nD τ) arg8 fullShare (step x0 x1 w0 w1 s)) -∗ K ⟨⟩))
      ⊢ wp frame (wpE (defs₀ (F := F)) Variants.none c none) E (cc0_matmul_kernel i arg3 harg3 arg4 harg4 arg5 harg5 arg6 harg6 arg7 harg7 arg8 harg8) K := by
  simp only [cc0_matmul_kernel_eq_skeleton]; unfold cc0_matmul_kernel_skel
  unfold owns
  iintro ⟨⟨%f3, %hf3, H3⟩, ⟨%f4, %hf4, H4⟩, ⟨%f5, %hf5, H5⟩, ⟨%f6, %hf6, H6⟩, ⟨%d7, %f7, -, H7⟩, ⟨%f8, %hf8, H8⟩, Hk⟩
  obtain rfl := harg3.eq_unread hf3; obtain rfl := harg4.eq_unread hf4; obtain rfl := harg5.eq_unread hf5; obtain rfl := harg6.eq_unread hf6; obtain rfl := harg8.eq_unread hf8
  sl_exec (disch := first | exact hc0 | exact hc1)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr
    swap; · iexact H7
    ipureintro
    sl_unfold_words
    unfold step
    have r3 := readAt_whole (F := F) arg3 harg3 hz2 inb_S1024x256_S1024x256_0_0 x0
    have r4 := readAt_whole (F := F) arg4 harg4 hz2 inb_S1024x256_S1024x256_0_0 x1
    have r5 := readAt_whole (F := F) arg5 harg5 hz2 inb_S256x2048_S256x2048_0_0 w0
    have r6 := readAt_whole (F := F) arg6 harg6 hz2 inb_S256x2048_S256x2048_0_0 w1
    have r8 := readAt_whole (F := F) arg8 harg8 hz2 inb_S1024x2048_S1024x2048_0_0 s
    refine (View.read_writes_eq_canon _ _ _ ?_).trans ?_
    · intro y
      refine ⟨_, List.mem_cons_self .., ?_⟩
      exact View.mem_set_unit_zero (S := S1024x2048) hz2 inb_S1024x2048_S1024x2048_0_0 y
    refine (View.canon_cons_unit_zero (S := S1024x2048) hz2 _ _ _).trans ?_
    rw [r3, r4, r5, r6, r8]
    repeat rw [View.readCov_cons_toLoadRect]
  · iexists _; isplitr
    swap; · iexact H8
    ipureintro
    sl_unfold_words
    unfold step
    have r3 := readAt_whole (F := F) arg3 harg3 hz2 inb_S1024x256_S1024x256_0_0 x0
    have r4 := readAt_whole (F := F) arg4 harg4 hz2 inb_S1024x256_S1024x256_0_0 x1
    have r5 := readAt_whole (F := F) arg5 harg5 hz2 inb_S256x2048_S256x2048_0_0 w0
    have r6 := readAt_whole (F := F) arg6 harg6 hz2 inb_S256x2048_S256x2048_0_0 w1
    have r8 := readAt_whole (F := F) arg8 harg8 hz2 inb_S1024x2048_S1024x2048_0_0 s
    refine (View.read_writes_eq_canon _ _ _ ?_).trans ?_
    · intro y
      refine ⟨_, List.mem_cons_self .., ?_⟩
      exact View.mem_set_unit_zero (S := S1024x2048) hz2 inb_S1024x2048_S1024x2048_0_0 y
    refine (View.canon_cons_unit_zero (S := S1024x2048) hz2 _ _ _).trans ?_
    rw [r3, r4, r5, r6, r8]
    repeat rw [View.readCov_cons_toLoadRect]

end Cert.KernelIdeal.Hand

end
-- ==== Proof.KernelIdeal.R0Body.lean ====
/-
  Region 0 over the whole grid: what the accumulator holds after each point, and the body's obligation to the
  pipeline at every point.

  Points are numbered row-major over the grid 4 × 4 × 8, so a point's number mod 8 is its block `k` of the contracted
  axis and the 8 points of one output block are consecutive. After point `n` the accumulator holds `accAt n`: one
  `step` from the cleared accumulator when `n ≡ 0`, one `step` from `accAt (n - 1)` otherwise — so at `n ≡ 7` it
  holds the 8 blocks' products summed, which is what that point copies into the output block. The invariant between
  points keeps the accumulator at `accAt` of the point before (before the first point: at anything), the other scratch
  memory and the generator register untouched.
-/
import proofs.«115578_j75797582840479_1_alg».proof.Proof.KernelIdeal.R0Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region0
-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- The four input blocks of a point at their literal types: of `x`, of `h`, of `W`, of `R`. -/
abbrev xb (c : Dev nD) (t : Fin cfg0.N) : Vec F S1024x256 .f32 := iblk0 V c 0 t
abbrev hb (c : Dev nD) (t : Fin cfg0.N) : Vec F S1024x256 .f32 := iblk0 V c 1 t
abbrev wb (c : Dev nD) (t : Fin cfg0.N) : Vec F S256x2048 .f32 := iblk0 V c 2 t
abbrev rb (c : Dev nD) (t : Fin cfg0.N) : Vec F S256x2048 .f32 := iblk0 V c 3 t

/-! ## The accumulator, point by point -/

/-- What the accumulator holds after the body at point `n`. -/
def accAt (c : Dev nD) : (n : ℕ) → n < cfg0.N → Vec F S1024x2048 .f32
  | 0, hn => step (xb V c ⟨0, hn⟩) (hb V c ⟨0, hn⟩) (wb V c ⟨0, hn⟩) (rb V c ⟨0, hn⟩) (k0_pay1 (F := F))
  | n + 1, hn =>
    if (n + 1) % 8 = 0 then step (xb V c ⟨n + 1, hn⟩) (hb V c ⟨n + 1, hn⟩) (wb V c ⟨n + 1, hn⟩) (rb V c ⟨n + 1, hn⟩) (k0_pay1 (F := F))
    else step (xb V c ⟨n + 1, hn⟩) (hb V c ⟨n + 1, hn⟩) (wb V c ⟨n + 1, hn⟩) (rb V c ⟨n + 1, hn⟩) (accAt c n (Nat.lt_of_succ_lt hn))

/-- At the first block of a group the accumulator restarts from zero; -/
theorem accAt_first (c : Dev nD) (t : Fin cfg0.N) (h0 : t.val % 8 = 0) :
    accAt V c t.val t.isLt = step (xb V c t) (hb V c t) (wb V c t) (rb V c t) (k0_pay1 (F := F)) := by
  obtain ⟨n, hn⟩ := t
  cases n with
  | zero => rfl
  | succ n => exact if_pos h0

/-- at any other it goes one step on from the point before. -/
theorem accAt_next (c : Dev nD) (t : Fin cfg0.N) (h0 : ¬t.val % 8 = 0) :
    accAt V c t.val t.isLt = step (xb V c t) (hb V c t) (wb V c t) (rb V c t) (accAt V c (t.val - 1) (Nat.lt_of_le_of_lt (Nat.sub_le _ _) t.isLt)) := by
  obtain ⟨n, hn⟩ := t
  cases n with
  | zero => exact absurd (Nat.zero_mod _) h0
  | succ n => exact if_neg h0

/-! ## The invariant between points -/

/-- The accumulator's scratch buffer as a memref. -/
abbrev scM0 : Memref sig .tc .vmem S1024x2048 .f32 := Memref.whole cc0_scratch0

/-- The core's other scoped buffers that this region does not stage (the second region's staging buffers), each
    whole at some contents. -/
def others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- The pipeline's own invariant, with the accumulator split off. -/
theorem PhiA0_eq (c : Dev nD) :
    (Pipeline.ΦA spec0 c : sProp 𝕄)
      = iprop(((∃ d, owns (c : Thread nD τ) scM0 fullShare d) ∗ others (F := F) c) ∗ (∃ r, prngReg c r)) := by
  unfold Pipeline.ΦA others; rw [scopedRest0_eq]; simp only [scM0, owns_whole]; try rfl

/-- Before point `n`: at the first, the pipeline's own invariant; afterwards the accumulator at what the point before
    left, the other scoped buffers at anything, the generator register at some state. -/
def PhiS (c : Dev nD) : (n : ℕ) → n ≤ cfg0.N → sProp 𝕄
  | 0, _ => Pipeline.ΦA spec0 c
  | n + 1, hn => iprop((owns (c : Thread nD τ) scM0 fullShare (accAt V c n hn) ∗ others (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop((owns (c : Thread nD τ) scM0 fullShare (accAt V c n hn) ∗ others (F := F) c) ∗ (∃ r, prngReg c r)) := rfl

theorem PhiS_pos (c : Dev nD) (n : ℕ) (h : n ≤ cfg0.N) (hz : n ≠ 0) :
    PhiS V c n h = iprop((owns (c : Thread nD τ) scM0 fullShare (accAt V c (n - 1) (by omega)) ∗ others (F := F) c) ∗ (∃ r, prngReg c r)) := by
  cases n with
  | zero => exact absurd rfl hz
  | succ n => rfl

/-! ## The pipeline's proof data -/

/-- Region 0's proof data on core `c`: the arrays as the region finds them; after the body at point `t` each input's
    buffer at its block and the output's at the accumulator (consulted only where the block is written back);
    the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => accAt V c t.val t.isLt
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = accAt V c t.val t.isLt := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4800000 in
/-- The body at any point. The inputs' memrefs hold their blocks; the point's number mod 8 says which case it is in;
    the invariant hands the body the accumulator at what the point before left (at anything before the first point)
    and takes it back at this point's contents; away from the last block the output's buffer passes through untouched,
    at the last block it is taken back at the accumulator's contents. The core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS V c (t.val + 1) t.isLt from rfl, PhiS_succ]
  have hN : t.val < 128 := lt_of_lt_of_eq t.isLt (show cfg0.N = 128 from N_0)
  rw [show (dat0 V c).leavesExact 0 t = owns (c : Thread nD τ) (st0_0 t) fullShare ((dat0 V c).after 0 t) from by
    unfold Dat.leavesExact; rw [liveAt0_0 t], after0_0]
  rw [show (dat0 V c).leavesExact 1 t = owns (c : Thread nD τ) (st0_1 t) fullShare ((dat0 V c).after 1 t) from by
    unfold Dat.leavesExact; rw [liveAt0_1 t], after0_1]
  rw [show (dat0 V c).leavesExact 2 t = owns (c : Thread nD τ) (st0_2 t) fullShare ((dat0 V c).after 2 t) from by
    unfold Dat.leavesExact; rw [liveAt0_2 t], after0_2]
  rw [show (dat0 V c).leavesExact 3 t = owns (c : Thread nD τ) (st0_3 t) fullShare ((dat0 V c).after 3 t) from by
    unfold Dat.leavesExact; rw [liveAt0_3 t], after0_3]
  by_cases h0 : t.val % 8 = 0
  · -- the first block of a group
    have h1 : ¬t.val % 8 = 7 := by omega
    have hc0 : cond0_0 (grid0.coords t) := (hcond0_0 t).mpr h0
    have hc1 : ¬cond0_1 (grid0.coords t) := fun h => h1 ((hcond0_1 t).mp h)
    rw [Dat.leavesExact_idle (dat0 V c) 4 t (idleAt0_4 t hc1) (noFlush0_4 t hc1)]
    rw [accAt_first V c t h0]
    have hscr : (dat0 V c).Φ t.castSucc ⊢ (iprop(((∃ d, owns (c : Thread nD τ) scM0 fullShare d) ∗ others (F := F) c) ∗ (∃ r, prngReg c r)) : sProp 𝕄) := by
      by_cases hz : t.val = 0
      · rw [PhiS_castSucc V c t, PhiS_zero V c _ _ hz, PhiA0_eq]
      · rw [PhiS_castSucc V c t, PhiS_pos V c _ _ hz]
        iintro ⟨⟨HS, Hoth⟩, Hg⟩
        isplitl [HS Hoth]
        · isplitl [HS]; · iexists _; iexact HS
          iexact Hoth
        iexact Hg
    iintro ⟨HΦ, Ho, ⟨%d0, H0⟩, ⟨%d1, H1⟩, ⟨%d2, H2⟩, ⟨%d3, H3⟩, ⟨%d4, H4⟩⟩
    ihave HΦ' := hscr $$ HΦ
    icases HΦ' with ⟨⟨HS, Hoth⟩, Hg⟩
    iapply (run_first c Set.univ (grid0.coords t) _ _ _ _ _ _ _ _ _ _ _ _ hc0 hc1 (iblk0 V c 0 t) (iblk0 V c 1 t) (iblk0 V c 2 t) (iblk0 V c 3 t) _)
    isplitl [H0]; · iexact H0
    isplitl [H1]; · iexact H1
    isplitl [H2]; · iexact H2
    isplitl [H3]; · iexact H3
    isplitl [HS]; · iexact HS
    iintro ⟨H0, H1, H2, H3, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    isplitl [H2]; · iexact H2
    isplitl [H3]; · iexact H3
    iexists _; iexact H4
  · by_cases h1 : t.val % 8 = 7
    · -- the last block of a group
      have hc0 : ¬cond0_0 (grid0.coords t) := fun h => h0 ((hcond0_0 t).mp h)
      have hc1 : cond0_1 (grid0.coords t) := (hcond0_1 t).mpr h1
      have hz : t.val ≠ 0 := by omega
      rw [show (dat0 V c).leavesExact 4 t = owns (c : Thread nD τ) (st0_4 t) fullShare ((dat0 V c).after 4 t) from by
        unfold Dat.leavesExact; rw [liveAt0_4 t hc1], after0_4]
      rw [accAt_next V c t h0, PhiS_castSucc V c t, PhiS_pos V c _ _ hz]
      iintro ⟨⟨⟨HS, Hoth⟩, Hg⟩, Ho, ⟨%d0, H0⟩, ⟨%d1, H1⟩, ⟨%d2, H2⟩, ⟨%d3, H3⟩, ⟨%d4, H4⟩⟩
      iapply (run_last c Set.univ (grid0.coords t) _ _ _ _ _ _ _ _ _ _ _ _ hc0 hc1 (iblk0 V c 0 t) (iblk0 V c 1 t) (iblk0 V c 2 t) (iblk0 V c 3 t) _ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      isplitl [H3]; · iexact H3
      iexact H4
    · -- a middle block
      have hc0 : ¬cond0_0 (grid0.coords t) := fun h => h0 ((hcond0_0 t).mp h)
      have hc1 : ¬cond0_1 (grid0.coords t) := fun h => h1 ((hcond0_1 t).mp h)
      have hz : t.val ≠ 0 := by omega
      rw [Dat.leavesExact_idle (dat0 V c) 4 t (idleAt0_4 t hc1) (noFlush0_4 t hc1)]
      rw [accAt_next V c t h0, PhiS_castSucc V c t, PhiS_pos V c _ _ hz]
      iintro ⟨⟨⟨HS, Hoth⟩, Hg⟩, Ho, ⟨%d0, H0⟩, ⟨%d1, H1⟩, ⟨%d2, H2⟩, ⟨%d3, H3⟩, ⟨%d4, H4⟩⟩
      iapply (run_middle c Set.univ (grid0.coords t) _ _ _ _ _ _ _ _ _ _ _ _ hc0 hc1 (iblk0 V c 0 t) (iblk0 V c 1 t) (iblk0 V c 2 t) (iblk0 V c 3 t) _ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]

/-- After the last point the invariant gives the pipeline's own back: the accumulator's contents are forgotten. -/
theorem hout0 (c : Dev nD) : (dat0 V c).Φ (Fin.last cfg0.N) ⊢ Pipeline.ΦA spec0 c := by
  have ht : (Fin.last cfg0.N).val ≠ 0 := by rw [Fin.val_last]; have : cfg0.N = 128 := N_0; omega
  rw [show (dat0 V c).Φ (Fin.last cfg0.N) = PhiS V c (Fin.last cfg0.N).val (Nat.le_of_lt_succ (Fin.last cfg0.N).isLt) from rfl,
    PhiS_pos V c _ _ ht, PhiA0_eq]
  iintro ⟨⟨HS, Hoth⟩, Hg⟩
  isplitl [HS Hoth]
  · isplitl [HS]; · iexists _; iexact HS
    iexact Hoth
  iexact Hg

end Region0

end Cert.KernelIdeal.Hand

end
-- ==== Proof.KernelIdeal.R1Body.lean ====
/-
  Region 1 (the gates): at each of its 32 grid points the body reads a 128-row block of the pre-activations `z`
  (all four column bands) and the matching block of the old cell state, and writes the new hidden state's block and
  the new cell state's block, each whole. Nothing is kept between points and no window is ever idle, so the proof data
  name each output's buffer after the body directly: the body's two stored values of the point's two input blocks.
-/
import proofs.«115578_j75797582840479_1_alg».proof.Proof.KernelIdeal.Basics

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region1
-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's triple -/

set_option maxHeartbeats 4000000 in
/-- The body on whole staging memrefs, the inputs' at contents `z` (pre-activations) and `c0` (old cell state), the
    outputs' at anything: it runs to the continuation holding the inputs' as they were, the first output's at the new
    hidden state `k1_pay3 z c0` and the second's at the new cell state `k1_pay2 z c0`. -/
theorem sound_kernel1 (c : Dev nD) (E : Set ℕ) (i : grid1.Coords)
    (arg1 : Memref sig .tc .vmem S128x8192 .f32) (harg1 : arg1.IsWhole) (arg2 : Memref sig .tc .vmem S128x2048 .f32) (harg2 : arg2.IsWhole)
    (arg3 : Memref sig .tc .vmem S128x2048 .f32) (harg3 : arg3.IsWhole) (arg4 : Memref sig .tc .vmem S128x2048 .f32) (harg4 : arg4.IsWhole)
    (z : Vec F S128x8192 .f32) (c0 : Vec F S128x2048 .f32) (K : PUnit → sProp 𝕄) :
    iprop(owns (c : Thread nD τ) arg1 fullShare z ∗ owns (c : Thread nD τ) arg2 fullShare c0
        ∗ (∃ d, owns (c : Thread nD τ) arg3 fullShare d) ∗ (∃ d, owns (c : Thread nD τ) arg4 fullShare d)
        ∗ (iprop(owns (c : Thread nD τ) arg1 fullShare z ∗ owns (c : Thread nD τ) arg2 fullShare c0
            ∗ owns (c : Thread nD τ) arg3 fullShare (k1_pay3 z c0) ∗ owns (c : Thread nD τ) arg4 fullShare (k1_pay2 z c0)) -∗ K ⟨⟩))
      ⊢ wp frame (wpE (defs₀ (F := F)) Variants.none c none) E (cc1_gate_kernel i arg1 harg1 arg2 harg2 arg3 harg3 arg4 harg4) K := by
  simp only [cc1_gate_kernel_eq_skeleton]; unfold cc1_gate_kernel_skel
  simp only [k1_part1_eq_skeleton]
  unfold owns
  iintro ⟨⟨%f1, %hf1, H1⟩, ⟨%f2, %hf2, H2⟩, ⟨%d3, %f3, -, H3⟩, ⟨%d4, %f4, -, H4⟩, Hk⟩
  obtain rfl := harg1.eq_unread hf1; obtain rfl := harg2.eq_unread hf2
  sl_exec
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr
    swap; · iexact H3
    ipureintro
    sl_unfold_words
    have r1 := readAt_whole (F := F) arg1 harg1 hz2 inb_S128x8192_S128x8192_0_0 z
    have r2 := readAt_whole (F := F) arg2 harg2 hz2 inb_S128x2048_S128x2048_0_0 c0
    refine (View.read_writes_eq_canon _ _ _ ?_).trans ?_
    · intro y
      refine ⟨_, List.mem_cons_self .., ?_⟩
      exact View.mem_set_unit_zero (S := S128x2048) hz2 inb_S128x2048_S128x2048_0_0 y
    refine (View.canon_cons_unit_zero (S := S128x2048) hz2 _ _ _).trans ?_
    rw [r1, r2]
  · iexists _; isplitr
    swap; · iexact H4
    ipureintro
    sl_unfold_words
    have r1 := readAt_whole (F := F) arg1 harg1 hz2 inb_S128x8192_S128x8192_0_0 z
    have r2 := readAt_whole (F := F) arg2 harg2 hz2 inb_S128x2048_S128x2048_0_0 c0
    refine (View.read_writes_eq_canon _ _ _ ?_).trans ?_
    · intro y
      refine ⟨_, List.mem_cons_self .., ?_⟩
      exact View.mem_set_unit_zero (S := S128x2048) hz2 inb_S128x2048_S128x2048_0_0 y
    refine (View.canon_cons_unit_zero (S := S128x2048) hz2 _ _ _).trans ?_
    rw [r1, r2]

/-! ## The pipeline's proof data -/

/-- Region 1's proof data on core `c`: the arrays as the region finds them; after the body at point `t` each input's
    buffer at its block, the outputs' at the body's two stored values of those blocks; the pipeline's own invariant
    (the scoped rest and the generator register, untouched); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay3 (iblk1 V c 0 t) (iblk1 V c 1 t)
    | ⟨3, _⟩ => k1_pay2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = k1_pay3 (iblk1 V c 0 t) (iblk1 V c 1 t) := by dsimp only [dat1]
theorem after1_3 (c : Dev nD) (t : Fin cfg1.N) : (dat1 V c).after 3 t = k1_pay2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

set_option maxHeartbeats 4000000 in
/-- The body at any point: the inputs' memrefs hold their blocks, so the triple applies; the invariant and the core's
    `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Hand

end
-- ==== Proof.KernelIdeal.Run.lean ====
/-
  The whole program's run: @main is the two kernel regions in order, nothing between them.

  Between the items core `c` holds every unscoped buffer whole, at contents that fold from the launch memory:
  `W0` at launch; `W1` after region 0, which may change only the pre-activation array (its output window's array), left
  at what its write-backs fold to; `W2` after region 1, which may change only the two result arrays. No region writes an
  argument (each argument is read through an input window or bypasses the region), so every argument reads back to its
  launch contents through the fold; the two results read back as region 1's final arrays, and region 1's view of the
  pre-activations is region 0's final array.
-/
import proofs.«115578_j75797582840479_1_alg».proof.Proof.KernelIdeal.R0Body
import proofs.«115578_j75797582840479_1_alg».proof.Proof.KernelIdeal.R1Body
import Idealize.ShloMosaic.Lib.Pipeline.RegionsLoop

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch (region 0's entry). -/
abbrev W0 : Dev nD → Valuation τ sig (Elt F) := fun c b => m ((c : Dev nD), b)
/-- The same read at the TensorCore's references. -/
abbrev V0 : (c : Dev nD) → (b : Ref sig .tc) → Buf (Elt F) ((c : Thread nD τ).loc b) := fun c b => W0 m c b
/-- At region 0's exit (region 1's entry): its arrays at what the pipeline leaves, every other buffer as entered. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- At region 1's exit: its arrays at what the pipeline leaves, every other buffer as entered. -/
def W2 (c : Dev nD) : Valuation τ sig (Elt F) :=
  Pipeline.withArrays spec1 c (W1 m c) fun w => (dat1 (V1 m) c).arrAt w cfg1.N
theorem W2_arr (c : Dev nD) (w : Fin cfg1.W) :
    W2 m c (Proc.devRef .tc (Pipeline.arrRef spec1 w)) = (dat1 (V1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
abbrev V2 : (c : Dev nD) → (b : Ref sig .tc) → Buf (Elt F) ((c : Thread nD τ).loc b) := fun c b => W2 m c b
theorem hF1 (c : Dev nD) (w : Fin cfg1.W) : (dat1 (V1 m) c).arrAt w cfg1.N = V2 m c (Pipeline.arrRef spec1 w) :=
  (W2_arr m c w).symm
theorem hrest1 (c : Dev nD) : ∀ b, b ∉ Finset.univ.image (Pipeline.arrRef spec1) → V2 m c b = V1 m c b :=
  fun b hb => W2_of_ne m c b fun w e => hb (Finset.mem_image.mpr ⟨w, Finset.mem_univ _, e⟩)

/-! ### What the second region finds -/

/-- Region 1's pre-activation array is what region 0 left in it; -/
theorem V1_z (c : Dev nD) : V1 m c main_v0 = (dat0 (V0 m) c).arrAt 4 cfg0.N := W1_arr m c 4
/-- its old cell state is the argument as launched. -/
theorem V1_c (c : Dev nD) : V1 m c main_arg2 = m ((c : Thread nD τ).loc main_arg2) := W1_of_ne m c main_arg2 (by decide)

/-! ### The arguments end as launched -/

theorem W2_main_arg0 (c : Dev nD) : W2 m c (Proc.devRef .tc main_arg0) = m ((c : Thread nD τ).loc main_arg0) :=
  calc W2 m c (Proc.devRef .tc main_arg0)
    _ = W1 m c (Proc.devRef .tc main_arg0) := W2_of_ne m c main_arg0 (by decide)
    _ = W0 m c (Proc.devRef .tc main_arg0) := (W1_arr m c 0).trans (((dat0 (V0 m) c).arrAt_in 0 rfl _).trans (A_eq0 (V0 m) c 0))
    _ = m ((c : Thread nD τ).loc main_arg0) := rfl
theorem W2_main_arg1 (c : Dev nD) : W2 m c (Proc.devRef .tc main_arg1) = m ((c : Thread nD τ).loc main_arg1) :=
  calc W2 m c (Proc.devRef .tc main_arg1)
    _ = W1 m c (Proc.devRef .tc main_arg1) := W2_of_ne m c main_arg1 (by decide)
    _ = W0 m c (Proc.devRef .tc main_arg1) := (W1_arr m c 1).trans (((dat0 (V0 m) c).arrAt_in 1 rfl _).trans (A_eq0 (V0 m) c 1))
    _ = m ((c : Thread nD τ).loc main_arg1) := rfl
theorem W2_main_arg2 (c : Dev nD) : W2 m c (Proc.devRef .tc main_arg2) = m ((c : Thread nD τ).loc main_arg2) :=
  calc W2 m c (Proc.devRef .tc main_arg2)
    _ = W1 m c (Proc.devRef .tc main_arg2) := (W2_arr m c 1).trans (((dat1 (V1 m) c).arrAt_in 1 rfl _).trans (A_eq1 (V1 m) c 1))
    _ = W0 m c (Proc.devRef .tc main_arg2) := W1_of_ne m c main_arg2 (by decide)
    _ = m ((c : Thread nD τ).loc main_arg2) := rfl
theorem W2_main_arg3 (c : Dev nD) : W2 m c (Proc.devRef .tc main_arg3) = m ((c : Thread nD τ).loc main_arg3) :=
  calc W2 m c (Proc.devRef .tc main_arg3)
    _ = W1 m c (Proc.devRef .tc main_arg3) := W2_of_ne m c main_arg3 (by decide)
    _ = W0 m c (Proc.devRef .tc main_arg3) := (W1_arr m c 2).trans (((dat0 (V0 m) c).arrAt_in 2 rfl _).trans (A_eq0 (V0 m) c 2))
    _ = m ((c : Thread nD τ).loc main_arg3) := rfl
theorem W2_main_arg4 (c : Dev nD) : W2 m c (Proc.devRef .tc main_arg4) = m ((c : Thread nD τ).loc main_arg4) :=
  calc W2 m c (Proc.devRef .tc main_arg4)
    _ = W1 m c (Proc.devRef .tc main_arg4) := W2_of_ne m c main_arg4 (by decide)
    _ = W0 m c (Proc.devRef .tc main_arg4) := (W1_arr m c 3).trans (((dat0 (V0 m) c).arrAt_in 3 rfl _).trans (A_eq0 (V0 m) c 3))
    _ = m ((c : Thread nD τ).loc main_arg4) := rfl

/-! ## The proof data family and the thread state -/

abbrev adm : (p : Fin 2) → (pcfgs (F := F) p).Adm := fun p => (cfgs p).toPCfg_adm
/-- Every region's proof data, each at its region's entry contents (a literal match on the region). -/
def pdats : (p : Fin 2) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V1 m) c
abbrev 𝒱₀ : Variants := Variants.none
abbrev L : GSem nD τ sig → Finset Unit := fun _ => ∅
abbrev lv : GSem nD τ sig → Unit → ℕ := fun _ _ => 0
/-- What rides beside the buffers: the generator register at some state, and the core owing nothing. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W2 m c) ∗ ∃ r, prngReg c r)

/-! ## The regions as segments -/

set_option backward.isDefEq.respectTransparency.types false in
/-- REGION 0 over the thread state: entered from every unscoped buffer at `W0`, left at `W1`. Its arrays are
    split out of the unscoped buffers and put back at the exit contents; the generator register and the scoped rest go
    into the region's invariant and come back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (hout0 (V0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W1`, left at `W2`. Its arrays are
    split out of the unscoped buffers and put back at the exit contents; the generator register and the scoped rest go
    into the region's invariant and come back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V1 m c) (V2 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .region (reg0 m), .region (reg1 m) ]

theorem main_run (c : Dev nD) : main (F := F) c = Pipeline.Seg.run (segs m) := (main_chain c).trans (by chain_rfl)

set_option backward.isDefEq.respectTransparency.types false in
/-- THE RUN. From any memory with zero counters every weakly fair execution of @main terminates, nothing faulting,
    and every final state holds every unscoped buffer at the last fold `W2`. -/
theorem run_main : θ_run defs (onTc (τ := τ) (main (F := F))) ⟨m, fun _ => 0, ρ⟩
    (fun r => ∀ c : Dev nD, ∀ b ∈ Pipeline.ucRefs τ sig, r.2.mem (((c : Thread nD τ)).1, b) = W2 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m c b)
    (hfin := fun c s' => by
      iintro ⟨⟨Hh, -⟩, HSI⟩
      unfold StableHlo.held
      imodintro
      iapply (pointsTo_read_all (Pipeline.ucRefs τ sig) (fun b => (((c : Thread nD τ)).1, b)) (W2 m c) s')
      isplitl [Hh] <;> iassumption)
    (hQ := fun s h c => h c)

/-- THE FRAME: every argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W2_main_arg0 m c),
     (h c _ (mem_uc main_arg1 (by decide))).trans (W2_main_arg1 m c),
     (h c _ (mem_uc main_arg2 (by decide))).trans (W2_main_arg2 m c),
     (h c _ (mem_uc main_arg3 (by decide))).trans (W2_main_arg3 m c),
     (h c _ (mem_uc main_arg4 (by decide))).trans (W2_main_arg4 m c)⟩) (run_main m ρ)

/-- THE RUN WITH ITS RESULTS NAMED: the two result arrays end at region 1's final arrays, the arguments as launched. -/
theorem run_values : θ_run defs (onTc (τ := τ) (main (F := F))) ⟨m, fun _ => 0, ρ⟩ (fun r => ∀ c : Dev nD,
      r.2.mem ((c.tc : Thread nD τ).loc main_v1_0) = (dat1 (V1 m) c).arrAt 2 cfg1.N
      ∧ r.2.mem ((c.tc : Thread nD τ).loc main_v1_1) = (dat1 (V1 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_v1_0 (by decide))).trans (W2_arr m c 2),
     (h c _ (mem_uc main_v1_1 (by decide))).trans (W2_arr m c 3),
     (h c _ (mem_uc main_arg0 (by decide))).trans (W2_main_arg0 m c),
     (h c _ (mem_uc main_arg1 (by decide))).trans (W2_main_arg1 m c),
     (h c _ (mem_uc main_arg2 (by decide))).trans (W2_main_arg2 m c),
     (h c _ (mem_uc main_arg3 (by decide))).trans (W2_main_arg3 m c),
     (h c _ (mem_uc main_arg4 (by decide))).trans (W2_main_arg4 m c)⟩) (run_main m ρ)

end Cert.KernelIdeal.Hand

end
-- ==== Proof.R0Algebra.lean ====
/-
  Region 0's work at one grid point, read entry by entry on the extended reals.

  At a point the body adds onto the accumulator `s` the product of the point's block of `x` (1024 rows, 256 of the
  contracted indices) with its block of `W` (the same 256 indices, 2048 columns), then the product of the blocks of
  `h` and `R`. Every operation is exact and a change of float format is the identity, so the entry at row `p`,
  column `q` ends at

      s[p, q] + Σ_j x₀[p, j] · w₀[j, q] + Σ_j x₁[p, j] · w₁[j, q]        (j over the block's 256 indices).

  The cleared accumulator is the zero array.

  The one step that is not pointwise is the matrix product into a zero accumulator: its entry is a sum over the
  product's contraction index, a one-coordinate index, which is renamed to a number below 256; at output entry
  `(p, q)` and contraction index `j` the left operand is read at `(p, j)` and the right one at `(j, q)`.
-/
import proofs.«115578_j75797582840479_1_alg».proof.Proof.KernelIdeal.R0Runs
import Idealize.ShloMosaic.Lib.Pipeline.Value
import Idealize.ShloMosaic.Lib.ValueIdx
import Idealize.ShloMosaic.PureOps.Ideal.Laws

set_option maxRecDepth 16384

noncomputable section

namespace Cert.KernelIdeal.Value0

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand

/-! ## The cleared accumulator -/

/-- The cleared accumulator is zero at every entry. -/
theorem pay1_apply (i : S1024x2048.Idx) : (k0_pay1 (F := Ideal)) i = 0 := by
  unfold k0_pay1
  simp only [shapeCast_self]
  exact Ideal.ofBits_zero_f32

/-! ## Where the product reads its operands -/

/-- The left operand's row is the output entry's row. -/
theorem lhs_blk_0 (i : S1024x2048.Idx) (k : dot_S1024x256_S256x2048_S1024x2048_1_0_0_1_n_n.contr.Idx) :
    (dot_S1024x256_S256x2048_S1024x2048_1_0_0_1_n_n.lhsIdx i k 0).val = (i 0).val := by
  unfold DotDims.lhsIdx
  rw [dif_neg (show ¬(0 : Fin S1024x256.rank) ∈ dot_S1024x256_S256x2048_S1024x2048_1_0_0_1_n_n.lhsBatch by decide), dif_pos (show (0 : Fin S1024x256.rank) ∈ dot_S1024x256_S256x2048_S1024x2048_1_0_0_1_n_n.lhsNonContracting by decide)]
  rfl
/-- The left operand's column is the contraction index. -/
theorem lhs_blk_1 (i : S1024x2048.Idx) (k : dot_S1024x256_S256x2048_S1024x2048_1_0_0_1_n_n.contr.Idx) :
    (dot_S1024x256_S256x2048_S1024x2048_1_0_0_1_n_n.lhsIdx i k 1).val = (k ⟨0, by decide⟩).val :=
  dot_S1024x256_S256x2048_S1024x2048_1_0_0_1_n_n.lhsIdx_val_of_single rfl i k
/-- The right operand's row is the contraction index. -/
theorem rhs_blk_0 (i : S1024x2048.Idx) (k : dot_S1024x256_S256x2048_S1024x2048_1_0_0_1_n_n.contr.Idx) :
    (dot_S1024x256_S256x2048_S1024x2048_1_0_0_1_n_n.rhsIdx i k 0).val = (k ⟨0, by decide⟩).val :=
  dot_S1024x256_S256x2048_S1024x2048_1_0_0_1_n_n.rhsIdx_val_of_single rfl i k
/-- The right operand's column is the output entry's column. -/
theorem rhs_blk_1 (i : S1024x2048.Idx) (k : dot_S1024x256_S256x2048_S1024x2048_1_0_0_1_n_n.contr.Idx) :
    (dot_S1024x256_S256x2048_S1024x2048_1_0_0_1_n_n.rhsIdx i k 1).val = (i 1).val := by
  unfold DotDims.rhsIdx
  rw [dif_neg (show ¬(1 : Fin S256x2048.rank) ∈ dot_S1024x256_S256x2048_S1024x2048_1_0_0_1_n_n.rhsBatch by decide), dif_pos (show (1 : Fin S256x2048.rank) ∈ dot_S1024x256_S256x2048_S1024x2048_1_0_0_1_n_n.rhsNonContracting by decide)]
  rfl

/-! ## The product into a zero accumulator -/

/-- Entry `(p, q)` of the product of a 1024 × 256 block with a 256 × 2048 block, accumulated onto zero: the sum over
    the 256 contracted indices of the products of the entries. -/
theorem matmul_zero_apply (u : FVec Ideal S1024x256 .bf16) (v : FVec Ideal S256x2048 .bf16) (p : Fin 1024) (q : Fin 2048) :
    matmul (F := Ideal) dot_S1024x256_S256x2048_S1024x2048_1_0_0_1_n_n none u v (constant (F := Ideal) S1024x2048 .f32 0x00000000#32) (ix2 p q)
      = ∑ j : Fin 256, u (ix2 p j) * v (ix2 j q) := by
  simp only [matmul]
  rw [Ideal.matmul_constant_zero_apply, ← Equiv.sum_comp (contrEquiv1 dot_S1024x256_S256x2048_S1024x2048_1_0_0_1_n_n 256 rfl rfl).symm]
  refine Finset.sum_congr rfl fun k _ => ?_
  have hk := contrEquiv1_symm_val dot_S1024x256_S256x2048_S1024x2048_1_0_0_1_n_n 256 rfl rfl k
  have el : dot_S1024x256_S256x2048_S1024x2048_1_0_0_1_n_n.lhsIdx (ix2 p q) ((contrEquiv1 dot_S1024x256_S256x2048_S1024x2048_1_0_0_1_n_n 256 rfl rfl).symm k) = ix2 p k := funext fun a => Fin.ext (by
    match a with
    | ⟨0, _⟩ => exact lhs_blk_0 _ _
    | ⟨1, _⟩ => exact (lhs_blk_1 _ _).trans hk)
  have er : dot_S1024x256_S256x2048_S1024x2048_1_0_0_1_n_n.rhsIdx (ix2 p q) ((contrEquiv1 dot_S1024x256_S256x2048_S1024x2048_1_0_0_1_n_n 256 rfl rfl).symm k) = ix2 k q := funext fun a => Fin.ext (by
    match a with
    | ⟨0, _⟩ => exact (rhs_blk_0 _ _).trans hk
    | ⟨1, _⟩ => exact rhs_blk_1 _ _)
  rw [el, er]

/-! ## One product added onto the accumulator -/

/-- The first half of a point's work: the product of the blocks of `x` and `W` added onto the accumulator. -/
theorem pay2_apply (x : Vec Ideal S1024x256 .f32) (w : Vec Ideal S256x2048 .f32) (s : Vec Ideal S1024x2048 .f32)
    (p : Fin 1024) (q : Fin 2048) :
    k0_pay2 x w s (ix2 p q) = s (ix2 p q) + ∑ j : Fin 256, x (ix2 p j) * w (ix2 j q) := by
  unfold k0_pay2
  simp only [shapeCast_self]
  refine (addf_apply _ _ _).trans ?_
  refine congrArg (s (ix2 p q) + ·) ?_
  exact matmul_zero_apply _ _ p q

/-- The second half: the product of the blocks of `h` and `R`, the same way. -/
theorem pay3_apply (x : Vec Ideal S1024x256 .f32) (w : Vec Ideal S256x2048 .f32) (s : Vec Ideal S1024x2048 .f32)
    (p : Fin 1024) (q : Fin 2048) :
    k0_pay3 x w s (ix2 p q) = s (ix2 p q) + ∑ j : Fin 256, x (ix2 p j) * w (ix2 j q) := by
  unfold k0_pay3
  simp only [shapeCast_self]
  refine (addf_apply _ _ _).trans ?_
  refine congrArg (s (ix2 p q) + ·) ?_
  exact matmul_zero_apply _ _ p q

/-! ## The point's whole work -/

/-- Both products added onto the accumulator, at entry `(p, q)`. -/
theorem step_apply (x0 x1 : Vec Ideal S1024x256 .f32) (w0 w1 : Vec Ideal S256x2048 .f32) (s : Vec Ideal S1024x2048 .f32)
    (p : Fin 1024) (q : Fin 2048) :
    step x0 x1 w0 w1 s (ix2 p q)
      = (s (ix2 p q) + ∑ j : Fin 256, x0 (ix2 p j) * w0 (ix2 j q)) + ∑ j : Fin 256, x1 (ix2 p j) * w1 (ix2 j q) := by
  unfold step
  refine (pay3_apply x1 w1 _ p q).trans ?_
  exact congrArg (· + ∑ j : Fin 256, x1 (ix2 p j) * w1 (ix2 j q)) (pay2_apply x0 w0 s p q)

end Cert.KernelIdeal.Value0

end
-- ==== Proof.Spec.lean ====
/-
  The function both programs compute, stated once, index by index on the extended reals, over explicit
  coordinates (row `r < 4096`, hidden unit `q < 2048`, gate column `n < 8192`, contracted index `k < 2048`).

  One step of an LSTM cell with hard-sigmoid gates. With `x, h, c₀ : [4096, 2048]` and `W, R : [2048, 8192]`:

      z[r, n]  = Σ_k x[r, k] · W[k, n]  +  Σ_k h[r, k] · R[k, n]
      σ(t)     = min 1 (max 0 (a · t + 1/2))          -- a the float word 0x3E4CCCCD on both sides
      c[r, q]  = σ(z[r, 2048 + q]) · c₀[r, q] + σ(z[r, q]) · tanh(z[r, 4096 + q])
      h'[r, q] = σ(z[r, 6144 + q]) · tanh(c[r, q])

  The four column bands of `z` are the input, forget, candidate and output pre-activations.
  The one law that joins a sum over 2048 contracted indices to the same sum taken in 8 consecutive groups of 256
  is regrouping in a commutative monoid (`sum_blocks`): no finiteness is needed, the extended reals' addition
  being commutative and associative at the infinities too.
-/
import Idealize.ShloMosaic.PureOps.Ideal
import Idealize.ShloMosaic.Lib.ValueIdx
import Mathlib.Data.Fintype.BigOperators
import Mathlib.Logic.Equiv.Fin.Basic

noncomputable section

namespace Cert.Spec

open Idealize.ShloMosaic Idealize.ShloMosaic.ValueIdx

/-- The arrays' shapes: activations and state, weights, pre-activations. -/
abbrev SA : Shape := ⟨2, ![4096, 2048]⟩
abbrev SW : Shape := ⟨2, ![2048, 8192]⟩
abbrev SZ : Shape := ⟨2, ![4096, 8192]⟩

/-- The pre-activation at row `r`, gate column `n`: the two matrix products' entries, added. -/
def zAt (x h : SA.Idx → EReal) (W R : SW.Idx → EReal) (r : Fin 4096) (n : Fin 8192) : EReal :=
  (∑ k : Fin 2048, x (ix2 r k) * W (ix2 k n)) + ∑ k : Fin 2048, h (ix2 r k) * R (ix2 k n)

/-- The pre-activations as an array. -/
def zOf (x h : SA.Idx → EReal) (W R : SW.Idx → EReal) : SZ.Idx → EReal := fun j => zAt x h W R (j 0) (j 1)

/-- The hard sigmoid, with the slope and the offset as the float words both programs print. -/
def hsig (t : EReal) : EReal :=
  min (Ideal.ofBits .f32 0x3F800000#32) (max (Ideal.ofBits .f32 0x00000000#32)
    (Ideal.ofBits .f32 0x3E4CCCCD#32 * t + Ideal.ofBits .f32 0x3F000000#32))

/-- The new cell state at row `r`, unit `q`, from pre-activations `z` and the old state `c₀`. -/
def cAt (z : SZ.Idx → EReal) (c₀ : SA.Idx → EReal) (r : Fin 4096) (q : Fin 2048) : EReal :=
  hsig (z (ix2 r ⟨2048 + q.val, by omega⟩)) * c₀ (ix2 r q)
    + hsig (z (ix2 r ⟨q.val, by omega⟩)) * Ideal.tanh (z (ix2 r ⟨4096 + q.val, by omega⟩))

/-- The new hidden state at row `r`, unit `q`. -/
def hAt (z : SZ.Idx → EReal) (c₀ : SA.Idx → EReal) (r : Fin 4096) (q : Fin 2048) : EReal :=
  hsig (z (ix2 r ⟨6144 + q.val, by omega⟩)) * Ideal.tanh (cAt z c₀ r q)

/-- The two results as arrays. -/
def cOf (z : SZ.Idx → EReal) (c₀ : SA.Idx → EReal) : SA.Idx → EReal := fun i => cAt z c₀ (i 0) (i 1)
def hOf (z : SZ.Idx → EReal) (c₀ : SA.Idx → EReal) : SA.Idx → EReal := fun i => hAt z c₀ (i 0) (i 1)

/-- A sum over `a · b` indices is the sum over `a` consecutive groups of `b`, in any commutative monoid. -/
theorem sum_blocks {M : Type*} [AddCommMonoid M] (a b : Nat) (f : Fin (a * b) → M) :
    (∑ k : Fin (a * b), f k) = ∑ g : Fin a, ∑ j : Fin b, f ⟨g.val * b + j.val, by
      have := g.isLt; have := j.isLt; nlinarith [Nat.mul_le_mul_right b (Nat.succ_le_of_lt g.isLt)]⟩ := by
  -- Reindex the `a · b` indices by pairs (group, place): the pair `(g, j)` names the index `j + b · g`.
  rw [← Equiv.sum_comp finProdFinEquiv f, Fintype.sum_prod_type]
  refine Finset.sum_congr rfl fun g _ => Finset.sum_congr rfl fun j _ => ?_
  congr 1
  exact Fin.ext (by
    show j.val + b * g.val = g.val * b + j.val
    rw [Nat.mul_comm, Nat.add_comm])

end Cert.Spec

end
-- ==== Proof.R0Value.lean ====
/-
  Region 0's result: the pre-activation array `z` ends at the specification's `zOf` of the four argument arrays.

  The grid is 4 × 4 × 8 and point `t` has coordinates `(b, n, k) = (t / 32, t / 8 % 4, t % 8)`: the block of rows `b`, the
  block of gate columns `n`, the group `k` of 256 contracted indices. After point `t` the accumulator holds, at `(p, q)`, the
  shares of the groups `0 … k` of `z[1024·b + p, 2048·n + q]` (induction on `k`; one point's work adds its group's share,
  the first point of a group starts from zero). At `k = 7` the eight shares are the whole contracted sum, regrouped: the
  specification's entry. That point is the one that writes the output block back, the blocks `(b, n)` tile the array,
  so the array ends at `zOf`. Addition on the extended reals is used as a commutative monoid only.
-/
import proofs.«115578_j75797582840479_1_alg».proof.Proof.KernelIdeal.R0Body
import proofs.«115578_j75797582840479_1_alg».proof.Proof.R0Algebra
import proofs.«115578_j75797582840479_1_alg».proof.Proof.Spec
import Idealize.ShloMosaic.Lib.Pipeline.Value
import Idealize.ShloMosaic.Lib.ValueIdx
import Mathlib.Algebra.BigOperators.Fin
import Mathlib.Algebra.BigOperators.Group.Finset.Basic
import Mathlib.Algebra.BigOperators.Group.Finset.Defs
import Mathlib.Data.Fin.SuccPred

set_option maxRecDepth 16384
noncomputable section
namespace Cert.KernelIdeal.Value0b
open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand

variable (V : (c : Dev nD) → (b : Ref sig .tc) → Buf (Elt Ideal) ((c : Thread nD τ).loc b))

/-! ## The arrays and the contracted sum in eight groups -/

/-- The four argument arrays as the region finds them, at their literal types: `x`, `h`, `W`, `R`. -/
abbrev xa (c : Dev nD) : Vec Ideal S4096x2048 .f32 := V c main_arg0
abbrev ha (c : Dev nD) : Vec Ideal S4096x2048 .f32 := V c main_arg1
abbrev wa (c : Dev nD) : Vec Ideal S2048x8192 .f32 := V c main_arg3
abbrev ra (c : Dev nD) : Vec Ideal S2048x8192 .f32 := V c main_arg4

/-- The specification's pre-activations of those arrays. -/
abbrev zArr (c : Dev nD) : Vec Ideal S4096x8192 .f32 := Cert.Spec.zOf (xa V c) (ha V c) (wa V c) (ra V c)

/-- Group `g`'s share of the pre-activation at row `r`, column `n`: both products summed over the contracted indices
    `256·g … 256·g + 255`. -/
def part (c : Dev nD) (r : Fin 4096) (n : Fin 8192) (g : Fin 8) : EReal :=
  (∑ j : Fin 256, xa V c (ix2 r ⟨g.val * 256 + j.val, by have := g.isLt; have := j.isLt; omega⟩)
      * wa V c (ix2 ⟨g.val * 256 + j.val, by have := g.isLt; have := j.isLt; omega⟩ n))
    + ∑ j : Fin 256, ha V c (ix2 r ⟨g.val * 256 + j.val, by have := g.isLt; have := j.isLt; omega⟩)
      * ra V c (ix2 ⟨g.val * 256 + j.val, by have := g.isLt; have := j.isLt; omega⟩ n)

/-- A sum over the 2048 contracted indices, taken in 8 consecutive groups of 256. -/
theorem sum_groups (f : Fin 2048 → EReal) :
    (∑ k : Fin 2048, f k) = ∑ g : Fin 8, ∑ j : Fin 256, f ⟨g.val * 256 + j.val, by have := g.isLt; have := j.isLt; omega⟩ :=
  (Equiv.sum_comp (finCongr (by decide : 8 * 256 = 2048)) f).symm.trans (Cert.Spec.sum_blocks 8 256 _)

/-- The pre-activation at `(r, n)` is the eight groups' shares added. -/
theorem zAt_parts (c : Dev nD) (r : Fin 4096) (n : Fin 8192) :
    Cert.Spec.zAt (xa V c) (ha V c) (wa V c) (ra V c) r n = ∑ g : Fin 8, part V c r n g := by
  unfold Cert.Spec.zAt
  rw [sum_groups (fun k => xa V c (ix2 r k) * wa V c (ix2 k n)), sum_groups (fun k => ha V c (ix2 r k) * ra V c (ix2 k n)),
    ← Finset.sum_add_distrib]
  rfl

/-! ## The blocks, read at an index -/

/-- The printed index maps over the grid: point `t` is `(b, n, k) = (t / 32, t / 8 % 4, t % 8)`; the blocks of `x` and `h`
    are at `(b, k)`, those of `W` and `R` at `(k, n)`, the output block at `(b, n)`. -/
theorem idx_facts : ∀ t : Fin cfg0.N,
    win0_0.index t (0 : Fin 2) = t.val / 32 ∧ win0_0.index t (1 : Fin 2) = t.val % 8
    ∧ win0_1.index t (0 : Fin 2) = t.val / 32 ∧ win0_1.index t (1 : Fin 2) = t.val % 8
    ∧ win0_2.index t (0 : Fin 2) = t.val % 8 ∧ win0_2.index t (1 : Fin 2) = t.val / 8 % 4
    ∧ win0_3.index t (0 : Fin 2) = t.val % 8 ∧ win0_3.index t (1 : Fin 2) = t.val / 8 % 4
    ∧ win0_4.index t (0 : Fin 2) = t.val / 32 ∧ win0_4.index t (1 : Fin 2) = t.val / 8 % 4 :=
  (by decide +kernel : ∀ t : Fin grid0.N, _)

/-- The block of `x` at point `t` holds rows `1024·b …`, columns `256·k …` of `x`. -/
theorem xb_apply (c : Dev nD) (t : Fin cfg0.N) (p : Fin 1024) (j : Fin 256) (r : Fin 4096) (k : Fin 2048)
    (hr : r.val = 1024 * (t.val / 32) + p.val) (hk : k.val = 256 * (t.val % 8) + j.val) :
    xb V c t (ix2 p j) = xa V c (ix2 r k) := by
  obtain ⟨e0, e1, -⟩ := idx_facts t
  show V c main_arg0 (((cfg0.win 0).blk t).view.emb (ix2 p j)) = V c main_arg0 (ix2 r k)
  congr 1
  funext a
  apply Fin.ext
  match a with
  | ⟨0, _⟩ => show win0_0.index t (0 : Fin 2) * 1024 + 1 * p.val = r.val; omega
  | ⟨1, _⟩ => show win0_0.index t (1 : Fin 2) * 256 + 1 * j.val = k.val; omega

/-- The block of `h` likewise. -/
theorem hb_apply (c : Dev nD) (t : Fin cfg0.N) (p : Fin 1024) (j : Fin 256) (r : Fin 4096) (k : Fin 2048)
    (hr : r.val = 1024 * (t.val / 32) + p.val) (hk : k.val = 256 * (t.val % 8) + j.val) :
    hb V c t (ix2 p j) = ha V c (ix2 r k) := by
  obtain ⟨-, -, e0, e1, -⟩ := idx_facts t
  show V c main_arg1 (((cfg0.win 1).blk t).view.emb (ix2 p j)) = V c main_arg1 (ix2 r k)
  congr 1
  funext a
  apply Fin.ext
  match a with
  | ⟨0, _⟩ => show win0_1.index t (0 : Fin 2) * 1024 + 1 * p.val = r.val; omega
  | ⟨1, _⟩ => show win0_1.index t (1 : Fin 2) * 256 + 1 * j.val = k.val; omega

/-- The block of `W` at point `t` holds rows `256·k …`, columns `2048·n …` of `W`. -/
theorem wb_apply (c : Dev nD) (t : Fin cfg0.N) (j : Fin 256) (q : Fin 2048) (k : Fin 2048) (n : Fin 8192)
    (hk : k.val = 256 * (t.val % 8) + j.val) (hn : n.val = 2048 * (t.val / 8 % 4) + q.val) :
    wb V c t (ix2 j q) = wa V c (ix2 k n) := by
  obtain ⟨-, -, -, -, e0, e1, -⟩ := idx_facts t
  show V c main_arg3 (((cfg0.win 2).blk t).view.emb (ix2 j q)) = V c main_arg3 (ix2 k n)
  congr 1
  funext a
  apply Fin.ext
  match a with
  | ⟨0, _⟩ => show win0_2.index t (0 : Fin 2) * 256 + 1 * j.val = k.val; omega
  | ⟨1, _⟩ => show win0_2.index t (1 : Fin 2) * 2048 + 1 * q.val = n.val; omega

/-- The block of `R` likewise. -/
theorem rb_apply (c : Dev nD) (t : Fin cfg0.N) (j : Fin 256) (q : Fin 2048) (k : Fin 2048) (n : Fin 8192)
    (hk : k.val = 256 * (t.val % 8) + j.val) (hn : n.val = 2048 * (t.val / 8 % 4) + q.val) :
    rb V c t (ix2 j q) = ra V c (ix2 k n) := by
  obtain ⟨-, -, -, -, -, -, e0, e1, -⟩ := idx_facts t
  show V c main_arg4 (((cfg0.win 3).blk t).view.emb (ix2 j q)) = V c main_arg4 (ix2 k n)
  congr 1
  funext a
  apply Fin.ext
  match a with
  | ⟨0, _⟩ => show win0_3.index t (0 : Fin 2) * 256 + 1 * j.val = k.val; omega
  | ⟨1, _⟩ => show win0_3.index t (1 : Fin 2) * 2048 + 1 * q.val = n.val; omega

/-! ## The accumulator after each point -/

/-- One point's work on an accumulator `s`, at an index: the point's group's share is added. -/
theorem step_part (c : Dev nD) (t : Fin cfg0.N) (s : Vec Ideal S1024x2048 .f32) (p : Fin 1024) (q : Fin 2048)
    (r : Fin 4096) (n : Fin 8192) (hr : r.val = 1024 * (t.val / 32) + p.val) (hn : n.val = 2048 * (t.val / 8 % 4) + q.val)
    (g : Fin 8) (hg : g.val = t.val % 8) :
    step (xb V c t) (hb V c t) (wb V c t) (rb V c t) s (ix2 p q) = s (ix2 p q) + part V c r n g := by
  refine (Value0.step_apply (xb V c t) (hb V c t) (wb V c t) (rb V c t) s p q).trans ?_
  rw [add_assoc]
  unfold part
  congr 2
  · refine Finset.sum_congr rfl fun j _ => ?_
    rw [xb_apply V c t p j r ⟨g.val * 256 + j.val, by have := g.isLt; have := j.isLt; omega⟩ hr (by show g.val * 256 + j.val = _; omega),
      wb_apply V c t j q ⟨g.val * 256 + j.val, by have := g.isLt; have := j.isLt; omega⟩ n (by show g.val * 256 + j.val = _; omega) hn]
  · refine Finset.sum_congr rfl fun j _ => ?_
    rw [hb_apply V c t p j r ⟨g.val * 256 + j.val, by have := g.isLt; have := j.isLt; omega⟩ hr (by show g.val * 256 + j.val = _; omega),
      rb_apply V c t j q ⟨g.val * 256 + j.val, by have := g.isLt; have := j.isLt; omega⟩ n (by show g.val * 256 + j.val = _; omega) hn]

/-- THE INVARIANT. After the point at place `k` of its group of 8 the accumulator holds, at `(p, q)` of the block, the
    shares of the groups `0 … k` of the pre-activation at the block's place in the array. By induction on `k`: the
    first point of a group starts from zero, every later one from what the point before (same block) left. -/
theorem acc_parts (c : Dev nD) : ∀ (k : Nat) (hk : k < 8) (t : Fin cfg0.N), t.val % 8 = k →
    ∀ (p : Fin 1024) (q : Fin 2048) (r : Fin 4096) (n : Fin 8192),
      r.val = 1024 * (t.val / 32) + p.val → n.val = 2048 * (t.val / 8 % 4) + q.val →
      accAt V c t.val t.isLt (ix2 p q)
        = ∑ g : Fin (k + 1), part V c r n ⟨g.val, lt_of_lt_of_le g.isLt (Nat.succ_le_of_lt hk)⟩
  | 0, hk, t, ht, p, q, r, n, hr, hn => by
    refine (congrFun (accAt_first V c t ht) (ix2 p q)).trans ?_
    refine (step_part V c t (k0_pay1 (F := Ideal)) p q r n hr hn ⟨0, hk⟩ ht.symm).trans ?_
    rw [Value0.pay1_apply, zero_add, Fin.sum_univ_castSucc, Fin.sum_univ_zero, zero_add]
    rfl
  | k + 1, hk, t, ht, p, q, r, n, hr, hn => by
    have hN : t.val < 128 := lt_of_lt_of_eq t.isLt N_0
    have h0 : ¬t.val % 8 = 0 := by omega
    refine (congrFun (accAt_next V c t h0) (ix2 p q)).trans ?_
    refine (step_part V c t (accAt V c (t.val - 1) (Nat.lt_of_le_of_lt (Nat.sub_le _ _) t.isLt)) p q r n hr hn ⟨k + 1, hk⟩ ht.symm).trans ?_
    refine (congrArg (· + part V c r n ⟨k + 1, hk⟩)
      (acc_parts c k (Nat.lt_of_succ_lt hk) ⟨t.val - 1, Nat.lt_of_le_of_lt (Nat.sub_le _ _) t.isLt⟩
        (by show (t.val - 1) % 8 = k; omega) p q r n
        (by show r.val = 1024 * ((t.val - 1) / 32) + p.val; omega)
        (by show n.val = 2048 * ((t.val - 1) / 8 % 4) + q.val; omega))).trans ?_
    rw [Fin.sum_univ_castSucc (n := k + 1)]
    rfl

/-- At the last point of a group the accumulator holds the pre-activation. -/
theorem acc_last (c : Dev nD) (t : Fin cfg0.N) (h7 : t.val % 8 = 7) (p : Fin 1024) (q : Fin 2048) (r : Fin 4096) (n : Fin 8192)
    (hr : r.val = 1024 * (t.val / 32) + p.val) (hn : n.val = 2048 * (t.val / 8 % 4) + q.val) :
    accAt V c t.val t.isLt (ix2 p q) = Cert.Spec.zAt (xa V c) (ha V c) (wa V c) (ra V c) r n := by
  rw [zAt_parts]
  exact acc_parts V c 7 (by decide) t h7 p q r n hr hn

/-! ## From the blocks to the array -/

/-- WHAT A FLUSHING POINT WRITES BACK is its block of the pre-activations. -/
theorem flushed_eq (c : Dev nD) (t : Fin cfg0.N) (hf : (cfg0.win 4).flush t = true) :
    (dat0 V c).flushed 4 t = ((cfg0.win 4).blk t).view.read (Elt Ideal) (zArr V c) := by
  have h7 : t.val % 8 = 7 := (flush0_4 t).mp hf
  obtain ⟨-, -, -, -, -, -, -, -, e0, e1⟩ := idx_facts t
  show (cfg0.win 4).cut (grid0.coords t) ((dat0 V c).after 4 t) = _
  rw [after0_4]
  funext y
  obtain ⟨p, q, rfl⟩ : ∃ (p : Fin 1024) (q : Fin 2048), y = ix2 p q := ⟨y 0, y 1, eq_ix2 y⟩
  have hN : t.val < 128 := lt_of_lt_of_eq t.isLt N_0
  show accAt V c t.val t.isLt (ix2 p q) = zArr V c (((cfg0.win 4).blk t).view.emb (ix2 p q))
  refine (acc_last V c t h7 p q ⟨1024 * (t.val / 32) + p.val, by have := p.isLt; omega⟩ ⟨2048 * (t.val / 8 % 4) + q.val, by have := q.isLt; omega⟩ rfl rfl).trans ?_
  show _ = Cert.Spec.zAt (xa V c) (ha V c) (wa V c) (ra V c) ((((cfg0.win 4).blk t).view.emb (ix2 p q)) 0) ((((cfg0.win 4).blk t).view.emb (ix2 p q)) 1)
  congr 1
  · apply Fin.ext
    show 1024 * (t.val / 32) + p.val = win0_4.index t (0 : Fin 2) * 1024 + 1 * p.val
    omega
  · apply Fin.ext
    show 2048 * (t.val / 8 % 4) + q.val = win0_4.index t (1 : Fin 2) * 2048 + 1 * q.val
    omega

/-- An index of the array is in point `t`'s block iff each coordinate is in the block's range on its axis. -/
theorem mem_blk (t : Fin cfg0.N) (i : S4096x8192.Idx) :
    i ∈ ((cfg0.win 4).blk t).view.set ↔ ∀ a : Fin 2, win0_4.index t a * S1024x2048.size a ≤ (i a).val ∧ (i a).val < win0_4.index t a * S1024x2048.size a + S1024x2048.size a := by
  show i ∈ ((View.whole main_v0).slice (win0_4.rect t)).set ↔ _
  rw [View.set_slice_whole, Rect.mem_set_unit]
  exact Iff.rfl

/-- THE COVER: entry `(r, n)` of the array lies in the block that the last point of its group writes back. -/
theorem cover (i : S4096x8192.Idx) : ∃ t : Fin cfg0.N, (cfg0.win 4).flush t = true ∧ i ∈ ((cfg0.win 4).blk t).view.set := by
  have hi0 : (i 0).val < 4096 := (i 0).isLt
  have hi1 : (i 1).val < 8192 := (i 1).isLt
  have hN : cfg0.N = 128 := N_0
  let t : Fin cfg0.N := ⟨32 * ((i 0).val / 1024) + 8 * ((i 1).val / 2048) + 7, by rw [hN]; omega⟩
  have htv : t.val = 32 * ((i 0).val / 1024) + 8 * ((i 1).val / 2048) + 7 := rfl
  obtain ⟨-, -, -, -, -, -, -, -, e0, e1⟩ := idx_facts t
  refine ⟨t, (flush0_4 t).mpr (by rw [htv]; omega), ?_⟩
  rw [mem_blk]
  intro a
  match a with
  | ⟨0, _⟩ => show win0_4.index t (0 : Fin 2) * 1024 ≤ (i 0).val ∧ (i 0).val < win0_4.index t (0 : Fin 2) * 1024 + 1024; omega
  | ⟨1, _⟩ => show win0_4.index t (1 : Fin 2) * 2048 ≤ (i 1).val ∧ (i 1).val < win0_4.index t (1 : Fin 2) * 2048 + 2048; omega

/-- THE ARRAY after the region: the specification's pre-activations of the four argument arrays. -/
theorem final0_z (c : Dev nD) : (dat0 (F := Ideal) V c).arrAt 4 cfg0.N = Cert.Spec.zOf (V c main_arg0) (V c main_arg1) (V c main_arg3) (V c main_arg4) :=
  (dat0 V c).arrAt_eq_of_cover 4 (zArr V c) (flushed_eq V c) cover

end Cert.KernelIdeal.Value0b

end
-- ==== Proof.R1Value.lean ====
/-
  Region 1 (the gates), read as values at the extended reals: after its 32 grid points the new hidden state's array and
  the new cell state's array are the specification's functions `hOf` and `cOf` of the two arrays the region finds — the
  pre-activations `z : [4096, 8192]` and the old cell state `c₀ : [4096, 2048]`.

  The road. At a point `t` the body's two stored values are read index by index (row `p < 128`, unit `q < 2048`): the four
  column bands of the pre-activations' block are slices at column offsets 0, 2048, 4096, 6144, the hard sigmoid is
  `min 1 (max 0 (a · x + 1/2))` with the constants broadcast, and the rest is pointwise. Point `t`'s blocks are rows
  `128 t … 128 t + 127` of their arrays, all columns, so the stored values at `(p, q)` are the specification's at row
  `128 t + p`. Every point writes both results back, and row `r` lies in the block of point `r / 128`: the blocks cover
  the arrays, and each array ends holding the specification's function.
-/
import proofs.«115578_j75797582840479_1_alg».proof.Proof.KernelIdeal.R1Body
import proofs.«115578_j75797582840479_1_alg».proof.Proof.Spec
import Idealize.ShloMosaic.Lib.Pipeline.Value
import Idealize.ShloMosaic.Lib.ValueIdx
import Idealize.ShloMosaic.PureOps.Ideal.Laws

set_option maxRecDepth 16384
noncomputable section
namespace Cert.KernelIdeal.Value1
open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand

/-! ## The body's two stored values at an index -/

/-- The tanh of a vector, at an index, is the tanh of the element. -/
theorem tanh_at {s : Shape} {φ : FTy} (a : FVec Ideal s φ) (i : s.Idx) : tanh a i = Ideal.tanh (a i) := rfl

/-- A block of 2048 columns cut out of the 8192 at column offset `n`, read at row `p`, column `q`: the operand at
    row `p`, column `n + q`. -/
theorem slice_at (n : Nat) (hn : n + 2048 ≤ 8192) (x : FVec Ideal S128x8192 .f32) (h : S128x8192.Slices ![0, n] S128x2048)
    (p : Fin 128) (q : Fin 2048) :
    extractStridedSlice S128x2048 ![0, n] x h (ix2 p q) = x (ix2 p ⟨n + q.val, by omega⟩) :=
  extractStridedSlice_apply _ x h (ix2 p q) (ix2 p ⟨n + q.val, by omega⟩) fun a => by
    match a with
    | ⟨0, _⟩ => show p.val = 0 + p.val; omega
    | ⟨1, _⟩ => show n + q.val = n + q.val; rfl

/-- The reshaping to the same shape changes nothing. -/
theorem pay1_eq (z : Vec Ideal S128x8192 .f32) : k1_pay1 (F := Ideal) z = z := by
  unfold k1_pay1
  exact shapeCast_self z _

/-- THE NEW CELL STATE'S BLOCK at row `p`, unit `q`: the forget gate times the old state plus the input gate times the
    tanh of the candidate, the gates the hard sigmoids of their column bands of the pre-activations' block. -/
theorem pay2_at (z : Vec Ideal S128x8192 .f32) (c0 : Vec Ideal S128x2048 .f32) (p : Fin 128) (q : Fin 2048) :
    k1_pay2 (F := Ideal) z c0 (ix2 p q)
      = Cert.Spec.hsig (z (ix2 p ⟨2048 + q.val, by omega⟩)) * c0 (ix2 p q)
        + Cert.Spec.hsig (z (ix2 p ⟨q.val, by omega⟩)) * Ideal.tanh (z (ix2 p ⟨4096 + q.val, by omega⟩)) := by
  unfold k1_pay2 Cert.Spec.hsig
  simp only [pay1_eq, addf_apply, mulf_apply, maximumf_apply, minimumf_apply, broadcast_apply, tanh_at,
    slice_at 0 (by omega), slice_at 2048 (by omega), slice_at 4096 (by omega), Nat.zero_add]
  rfl

/-- THE NEW HIDDEN STATE'S BLOCK at row `p`, unit `q`: the output gate times the tanh of the new cell state. -/
theorem pay3_at (z : Vec Ideal S128x8192 .f32) (c0 : Vec Ideal S128x2048 .f32) (p : Fin 128) (q : Fin 2048) :
    k1_pay3 (F := Ideal) z c0 (ix2 p q)
      = Cert.Spec.hsig (z (ix2 p ⟨6144 + q.val, by omega⟩)) * Ideal.tanh (k1_pay2 (F := Ideal) z c0 (ix2 p q)) := by
  unfold k1_pay3 Cert.Spec.hsig
  simp only [pay1_eq, addf_apply, mulf_apply, maximumf_apply, minimumf_apply, broadcast_apply, tanh_at,
    slice_at 6144 (by omega)]
  rfl

/-! ## The grid's points and the windows' block indices -/

/-- The gates' grid has 32 points. -/
theorem point_lt (t : Fin cfg1.N) : t.val < 32 := by
  exact Nat.lt_of_lt_of_eq t.isLt N_1

/-- Row `p` of point `t`'s block is a row of the array. -/
theorem row_lt (t : Fin cfg1.N) (p : Fin 128) : 128 * t.val + p.val < 4096 := by
  have := point_lt t
  omega

/-- Every window's block at point `t` is block `t` along the rows and the one block along the columns: decided over
    the grid's 32 points. -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

section Blocks
variable (V : (c : Dev nD) → (b : Ref sig .tc) → Buf (Elt Ideal) ((c : Thread nD τ).loc b))

/-- The two arrays the gates read, as the region finds them: the pre-activations and the old cell state. -/
abbrev zarr (c : Dev nD) : Vec Ideal S4096x8192 .f32 := V c main_v0
abbrev carr (c : Dev nD) : Vec Ideal S4096x2048 .f32 := V c main_arg2

/-- Their blocks at point `t`. -/
abbrev zblk (c : Dev nD) (t : Fin cfg1.N) : Vec Ideal S128x8192 .f32 := iblk1 V c 0 t
abbrev cblk (c : Dev nD) (t : Fin cfg1.N) : Vec Ideal S128x2048 .f32 := iblk1 V c 1 t

/-- The pre-activations' block at point `t` is rows `128 t … 128 t + 127` of the array, all columns. -/
theorem zblk_at (c : Dev nD) (t : Fin cfg1.N) (p : Fin 128) (n : Fin 8192) :
    zblk V c t (ix2 p n) = zarr V c (ix2 ⟨128 * t.val + p.val, row_lt t p⟩ n) := by
  obtain ⟨e0, e1, -⟩ := index_facts t
  show V c main_v0 (((cfg1.win 0).blk t).view.emb (ix2 p n)) = V c main_v0 _
  refine congrArg (V c main_v0) (funext fun a => Fin.ext ?_)
  match a with
  | ⟨0, _⟩ => show win1_0.index t (0 : Fin 2) * 128 + 1 * p.val = 128 * t.val + p.val; rw [e0]; omega
  | ⟨1, _⟩ => show win1_0.index t (1 : Fin 2) * 8192 + 1 * n.val = n.val; rw [e1]; omega

/-- The old cell state's block at point `t` is the same rows of its array. -/
theorem cblk_at (c : Dev nD) (t : Fin cfg1.N) (p : Fin 128) (q : Fin 2048) :
    cblk V c t (ix2 p q) = carr V c (ix2 ⟨128 * t.val + p.val, row_lt t p⟩ q) := by
  obtain ⟨-, -, e2, e3, -⟩ := index_facts t
  show V c main_arg2 (((cfg1.win 1).blk t).view.emb (ix2 p q)) = V c main_arg2 _
  refine congrArg (V c main_arg2) (funext fun a => Fin.ext ?_)
  match a with
  | ⟨0, _⟩ => show win1_1.index t (0 : Fin 2) * 128 + 1 * p.val = 128 * t.val + p.val; rw [e2]; omega
  | ⟨1, _⟩ => show win1_1.index t (1 : Fin 2) * 2048 + 1 * q.val = q.val; rw [e3]; omega

/-- The body's new cell state at point `t`, row `p`, unit `q` is the specification's at row `128 t + p`. -/
theorem cell_blk (c : Dev nD) (t : Fin cfg1.N) (p : Fin 128) (q : Fin 2048) :
    k1_pay2 (F := Ideal) (zblk V c t) (cblk V c t) (ix2 p q)
      = Cert.Spec.cAt (zarr V c) (carr V c) ⟨128 * t.val + p.val, row_lt t p⟩ q := by
  rw [pay2_at]
  unfold Cert.Spec.cAt
  simp only [zblk_at, cblk_at]

/-- The body's new hidden state at point `t`, row `p`, unit `q` is the specification's at row `128 t + p`. -/
theorem hid_blk (c : Dev nD) (t : Fin cfg1.N) (p : Fin 128) (q : Fin 2048) :
    k1_pay3 (F := Ideal) (zblk V c t) (cblk V c t) (ix2 p q)
      = Cert.Spec.hAt (zarr V c) (carr V c) ⟨128 * t.val + p.val, row_lt t p⟩ q := by
  rw [pay3_at, cell_blk]
  unfold Cert.Spec.hAt
  simp only [zblk_at]

end Blocks

section Final
variable (V : (c : Dev nD) → (b : Ref sig .tc) → Buf (Elt Ideal) ((c : Thread nD τ).loc b))

/-! ## What each point writes back -/

/-- WHAT POINT `t` WRITES BACK TO THE NEW HIDDEN STATE is block `t` of the specification's hidden state of the two arrays
    the region finds. -/
theorem flushed_h (c : Dev nD) (t : Fin cfg1.N) :
    (dat1 (F := Ideal) V c).flushed 2 t
      = ((cfg1.win 2).blk t).view.read (Elt Ideal) (Cert.Spec.hOf (zarr V c) (carr V c)) := by
  show (cfg1.win 2).cut (grid1.coords t) ((dat1 V c).after 2 t) = _
  rw [after1_2]
  obtain ⟨-, -, -, -, e4, e5, -⟩ := index_facts t
  funext j
  obtain ⟨p, q, rfl⟩ : ∃ (p : Fin 128) (q : Fin 2048), j = ix2 p q := ⟨j 0, j 1, eq_ix2 j⟩
  have hL : (cfg1.win 2).xinj (grid1.coords t) (ix2 p q) = ix2 p q :=
    funext fun a => by match a with | ⟨0, _⟩ => rfl | ⟨1, _⟩ => rfl
  have hR : ((cfg1.win 2).blk t).view.emb (ix2 p q) = ix2 ⟨128 * t.val + p.val, row_lt t p⟩ q := by
    refine funext fun a => Fin.ext ?_
    match a with
    | ⟨0, _⟩ => show win1_2.index t (0 : Fin 2) * 128 + 1 * p.val = 128 * t.val + p.val; rw [e4]; omega
    | ⟨1, _⟩ => show win1_2.index t (1 : Fin 2) * 2048 + 1 * q.val = q.val; rw [e5]; omega
  show k1_pay3 (F := Ideal) (zblk V c t) (cblk V c t) ((cfg1.win 2).xinj (grid1.coords t) (ix2 p q))
    = Cert.Spec.hOf (zarr V c) (carr V c) (((cfg1.win 2).blk t).view.emb (ix2 p q))
  rw [hL, hR, hid_blk]
  rfl

/-- WHAT POINT `t` WRITES BACK TO THE NEW CELL STATE is block `t` of the specification's cell state. -/
theorem flushed_c (c : Dev nD) (t : Fin cfg1.N) :
    (dat1 (F := Ideal) V c).flushed 3 t
      = ((cfg1.win 3).blk t).view.read (Elt Ideal) (Cert.Spec.cOf (zarr V c) (carr V c)) := by
  show (cfg1.win 3).cut (grid1.coords t) ((dat1 V c).after 3 t) = _
  rw [after1_3]
  obtain ⟨-, -, -, -, -, -, e6, e7⟩ := index_facts t
  funext j
  obtain ⟨p, q, rfl⟩ : ∃ (p : Fin 128) (q : Fin 2048), j = ix2 p q := ⟨j 0, j 1, eq_ix2 j⟩
  have hL : (cfg1.win 3).xinj (grid1.coords t) (ix2 p q) = ix2 p q :=
    funext fun a => by match a with | ⟨0, _⟩ => rfl | ⟨1, _⟩ => rfl
  have hR : ((cfg1.win 3).blk t).view.emb (ix2 p q) = ix2 ⟨128 * t.val + p.val, row_lt t p⟩ q := by
    refine funext fun a => Fin.ext ?_
    match a with
    | ⟨0, _⟩ => show win1_3.index t (0 : Fin 2) * 128 + 1 * p.val = 128 * t.val + p.val; rw [e6]; omega
    | ⟨1, _⟩ => show win1_3.index t (1 : Fin 2) * 2048 + 1 * q.val = q.val; rw [e7]; omega
  show k1_pay2 (F := Ideal) (zblk V c t) (cblk V c t) ((cfg1.win 3).xinj (grid1.coords t) (ix2 p q))
    = Cert.Spec.cOf (zarr V c) (carr V c) (((cfg1.win 3).blk t).view.emb (ix2 p q))
  rw [hL, hR, cell_blk]
  rfl

/-! ## The blocks cover the arrays -/

/-- An index of the new hidden state's array is in point `t`'s block iff each coordinate is in the block's range. -/
theorem mem_blk_h (t : Fin cfg1.N) (i : S4096x2048.Idx) :
    i ∈ ((cfg1.win 2).blk t).view.set
      ↔ ∀ a : Fin 2, win1_2.index t a * S128x2048.size a ≤ (i a).val ∧ (i a).val < win1_2.index t a * S128x2048.size a + S128x2048.size a := by
  show i ∈ ((View.whole main_v1_0).slice (win1_2.rect t)).set ↔ _
  rw [View.set_slice_whole, Rect.mem_set_unit]
  exact Iff.rfl

/-- The same for the new cell state's array. -/
theorem mem_blk_c (t : Fin cfg1.N) (i : S4096x2048.Idx) :
    i ∈ ((cfg1.win 3).blk t).view.set
      ↔ ∀ a : Fin 2, win1_3.index t a * S128x2048.size a ≤ (i a).val ∧ (i a).val < win1_3.index t a * S128x2048.size a + S128x2048.size a := by
  show i ∈ ((View.whole main_v1_1).slice (win1_3.rect t)).set ↔ _
  rw [View.set_slice_whole, Rect.mem_set_unit]
  exact Iff.rfl

/-- The point whose block holds row `r`: `r / 128`. -/
def pointOf (i : S4096x2048.Idx) : Fin cfg1.N :=
  ⟨(i 0).val / 128, by
    have h : (i 0).val < 4096 := (i 0).isLt
    rw [show cfg1.N = 32 from N_1]
    omega⟩

theorem pointOf_val (i : S4096x2048.Idx) : (pointOf i).val = (i 0).val / 128 := rfl

/-- Every index of the new hidden state's array is in the block of the point `row / 128`, which writes back. -/
theorem cover_h (i : S4096x2048.Idx) :
    ∃ t : Fin cfg1.N, (cfg1.win 2).flush t = true ∧ i ∈ ((cfg1.win 2).blk t).view.set := by
  have hi1 : (i 1).val < 2048 := (i 1).isLt
  obtain ⟨-, -, -, -, e4, e5, -⟩ := index_facts (pointOf i)
  refine ⟨pointOf i, flush1_2 (pointOf i), ?_⟩
  rw [mem_blk_h]
  intro a
  match a with
  | ⟨0, _⟩ =>
    show win1_2.index (pointOf i) (0 : Fin 2) * 128 ≤ (i 0).val ∧ (i 0).val < win1_2.index (pointOf i) (0 : Fin 2) * 128 + 128
    rw [e4, pointOf_val]; omega
  | ⟨1, _⟩ =>
    show win1_2.index (pointOf i) (1 : Fin 2) * 2048 ≤ (i 1).val ∧ (i 1).val < win1_2.index (pointOf i) (1 : Fin 2) * 2048 + 2048
    rw [e5]; omega

/-- The same for the new cell state's array. -/
theorem cover_c (i : S4096x2048.Idx) :
    ∃ t : Fin cfg1.N, (cfg1.win 3).flush t = true ∧ i ∈ ((cfg1.win 3).blk t).view.set := by
  have hi1 : (i 1).val < 2048 := (i 1).isLt
  obtain ⟨-, -, -, -, -, -, e6, e7⟩ := index_facts (pointOf i)
  refine ⟨pointOf i, flush1_3 (pointOf i), ?_⟩
  rw [mem_blk_c]
  intro a
  match a with
  | ⟨0, _⟩ =>
    show win1_3.index (pointOf i) (0 : Fin 2) * 128 ≤ (i 0).val ∧ (i 0).val < win1_3.index (pointOf i) (0 : Fin 2) * 128 + 128
    rw [e6, pointOf_val]; omega
  | ⟨1, _⟩ =>
    show win1_3.index (pointOf i) (1 : Fin 2) * 2048 ≤ (i 1).val ∧ (i 1).val < win1_3.index (pointOf i) (1 : Fin 2) * 2048 + 2048
    rw [e7]; omega

/-! ## The two final arrays -/

/-- THE NEW HIDDEN STATE after the gates' 32 points is the specification's, of the pre-activations and the old cell state
    as the region finds them. -/
theorem final1_h (c : Dev nD) :
    (dat1 (F := Ideal) V c).arrAt 2 cfg1.N = Cert.Spec.hOf (V c main_v0) (V c main_arg2) :=
  (dat1 (F := Ideal) V c).arrAt_eq_of_cover 2 (Cert.Spec.hOf (zarr V c) (carr V c)) (fun t _ => flushed_h V c t) cover_h

/-- THE NEW CELL STATE after the gates' 32 points is the specification's. -/
theorem final1_c (c : Dev nD) :
    (dat1 (F := Ideal) V c).arrAt 3 cfg1.N = Cert.Spec.cOf (V c main_v0) (V c main_arg2) :=
  (dat1 (F := Ideal) V c).arrAt_eq_of_cover 3 (Cert.Spec.cOf (zarr V c) (carr V c)) (fun t _ => flushed_c V c t) cover_c

end Final

end Cert.KernelIdeal.Value1
end
-- ==== Proof.RefValue.lean ====
/-
  The reference's two results are the specification's arrays.

  The reference forms the pre-activations `z` as the sum of two matrix products, cuts `z` into its four column bands
  of width 2048, passes three bands through the hard sigmoid and one through the hyperbolic tangent, and combines them
  with the old cell state. Every step after the products reads each operand at one index, so the two equalities are
  checked index by index: at row `r`, unit `q`, a band's entry is `z` at column `q`, `2048 + q`, `4096 + q` or
  `6144 + q`, which are the columns the specification names.
-/
import proofs.«115578_j75797582840479_1_alg».proof.Proof.Gen.ReferenceIdeal.Run
import proofs.«115578_j75797582840479_1_alg».proof.Proof.Gen.ReferenceIdeal.Read
import proofs.«115578_j75797582840479_1_alg».proof.Proof.Spec

noncomputable section

namespace Cert.ReferenceIdeal.RefValue

open Cert.ReferenceIdeal Cert.ReferenceIdeal.Gen Cert.ReferenceIdeal.Read Idealize.ShloMosaic
open Idealize.ShloMosaic.ValueIdx

/-- The pre-activations: entry `(r, n)` of each matrix product is the sum over the contracted index `k` of the left
    factor at `(r, k)` times the right factor at `(k, n)`, and the two products are added entry by entry. -/
theorem ref_z (x0 x1 : (⟨S4096x2048, .f32⟩ : BufTy).Contents (Elt Ideal)) (x3 x4 : (⟨S2048x8192, .f32⟩ : BufTy).Contents (Elt Ideal)) :
    val_main_v2 (F := Ideal) x0 x1 x3 x4 = Cert.Spec.zOf x0 x1 x3 x4 := by
  funext j
  obtain ⟨r, n, rfl⟩ : ∃ (r : Fin 4096) (n : Fin 8192), j = ix2 r n := ⟨j 0, j 1, eq_ix2 j⟩
  have el0 : ∀ k : Fin 2048, lidx_main_v0 (ix2 r n) k = ix2 r k := fun k =>
    funext fun a => Fin.ext (by match a with | ⟨0, _⟩ => rfl | ⟨1, _⟩ => rfl)
  have er0 : ∀ k : Fin 2048, ridx_main_v0 (ix2 r n) k = ix2 k n := fun k =>
    funext fun a => Fin.ext (by match a with | ⟨0, _⟩ => rfl | ⟨1, _⟩ => rfl)
  have el1 : ∀ k : Fin 2048, lidx_main_v1 (ix2 r n) k = ix2 r k := fun k =>
    funext fun a => Fin.ext (by match a with | ⟨0, _⟩ => rfl | ⟨1, _⟩ => rfl)
  have er1 : ∀ k : Fin 2048, ridx_main_v1 (ix2 r n) k = ix2 k n := fun k =>
    funext fun a => Fin.ext (by match a with | ⟨0, _⟩ => rfl | ⟨1, _⟩ => rfl)
  rw [val_main_v2_apply, val_main_v0_apply, val_main_v1_apply]
  simp only [el0, er0, el1, er1, Ideal.addf_def]
  rfl

/-- The new cell state: the forget band's hard sigmoid times the old state, plus the input band's hard sigmoid times
    the candidate band's hyperbolic tangent. -/
theorem ref_c (x0 x1 x2 : (⟨S4096x2048, .f32⟩ : BufTy).Contents (Elt Ideal)) (x3 x4 : (⟨S2048x8192, .f32⟩ : BufTy).Contents (Elt Ideal)) :
    val_main_v20 (F := Ideal) x0 x1 x2 x3 x4 = Cert.Spec.cOf (Cert.Spec.zOf x0 x1 x3 x4) x2 := by
  funext i
  obtain ⟨r, q, rfl⟩ : ∃ (r : Fin 4096) (q : Fin 2048), i = ix2 r q := ⟨i 0, i 1, eq_ix2 i⟩
  have e3 : idx_main_v3 (ix2 r q) = ix2 r (⟨q.val, by omega⟩ : Fin 8192) :=
    funext fun a => Fin.ext (by match a with | ⟨0, _⟩ => rfl | ⟨1, _⟩ => rfl)
  have e4 : idx_main_v4 (ix2 r q) = ix2 r (⟨2048 + q.val, by omega⟩ : Fin 8192) :=
    funext fun a => Fin.ext (by match a with | ⟨0, _⟩ => rfl | ⟨1, _⟩ => rfl)
  have e5 : idx_main_v5 (ix2 r q) = ix2 r (⟨4096 + q.val, by omega⟩ : Fin 8192) :=
    funext fun a => Fin.ext (by match a with | ⟨0, _⟩ => rfl | ⟨1, _⟩ => rfl)
  simp only [val_main_v20_apply, val_main_v17_apply, val_main_v19_apply, val_main_v18_apply,
    val_main_v16_apply, val_main_call1_v4_apply, val_main_call1_v3_apply, val_main_call1_v2_apply, val_main_call1_v1_apply, val_main_call1_v0_apply,
    val_main_cst_6_apply, val_main_cst_5_apply, val_main_v15_apply, val_main_v14_apply, val_main_cst_4_apply,
    val_main_v13_apply, val_main_v12_apply, val_main_cst_3_apply,
    val_main_v11_apply, val_main_call0_v4_apply, val_main_call0_v3_apply, val_main_call0_v2_apply, val_main_call0_v1_apply, val_main_call0_v0_apply,
    val_main_cst_2_apply, val_main_cst_1_apply, val_main_v10_apply, val_main_v9_apply, val_main_cst_0_apply,
    val_main_v8_apply, val_main_v7_apply, val_main_cst_apply,
    val_main_v3_apply, val_main_v4_apply, val_main_v5_apply,
    ref_z, e3, e4, e5, Ideal.mulf_def, Ideal.addf_def, Ideal.maximumf_def, Ideal.minimumf_def, Ideal.hostUnary_tanh_def, Ideal.ofBits_def]
  rfl

/-- The new hidden state: the output band's hard sigmoid times the hyperbolic tangent of the new cell state. -/
theorem ref_h (x0 x1 x2 : (⟨S4096x2048, .f32⟩ : BufTy).Contents (Elt Ideal)) (x3 x4 : (⟨S2048x8192, .f32⟩ : BufTy).Contents (Elt Ideal)) :
    val_main_v27 (F := Ideal) x0 x1 x2 x3 x4 = Cert.Spec.hOf (Cert.Spec.zOf x0 x1 x3 x4) x2 := by
  funext i
  obtain ⟨r, q, rfl⟩ : ∃ (r : Fin 4096) (q : Fin 2048), i = ix2 r q := ⟨i 0, i 1, eq_ix2 i⟩
  have e6 : idx_main_v6 (ix2 r q) = ix2 r (⟨6144 + q.val, by omega⟩ : Fin 8192) :=
    funext fun a => Fin.ext (by match a with | ⟨0, _⟩ => rfl | ⟨1, _⟩ => rfl)
  simp only [val_main_v27_apply, val_main_v26_apply, val_main_v25_apply, val_main_call2_v4_apply, val_main_call2_v3_apply, val_main_call2_v2_apply, val_main_call2_v1_apply, val_main_call2_v0_apply,
    val_main_cst_10_apply, val_main_cst_9_apply, val_main_v24_apply, val_main_v23_apply, val_main_cst_8_apply,
    val_main_v22_apply, val_main_v21_apply, val_main_cst_7_apply, val_main_v6_apply,
    ref_c, ref_z, e6, Ideal.mulf_def, Ideal.addf_def, Ideal.maximumf_def, Ideal.minimumf_def, Ideal.hostUnary_tanh_def, Ideal.ofBits_def]
  rfl

end Cert.ReferenceIdeal.RefValue

end
-- ==== Proof.lean ====
/-
  One LSTM-cell step with hard-sigmoid gates, as a Pallas kernel in two regions, against its jnp reference.

  The kernel's first region computes the pre-activations `z = x·W + h·R` block by block: for each of 4 × 4 output
  blocks it walks the contracted axis in 8 blocks of 256, adding both products of the current blocks onto an accumulator
  it keeps between grid points, and writes the accumulator out at the eighth. The second region applies the gates row
  block by row block. The reference computes `z` by two whole matrix products and the same gates on whole arrays.

  At the ideal instance a float is an extended real, a change of float format is the identity, and every operation is
  exact; the literals (the hard sigmoid's slope 0x3E4CCCCD, its offset, the clip bounds) are the same words on both
  sides and are never evaluated. So the two programs differ only in how the contracted sum is grouped — 8 groups of
  256, the two products' groups interleaved, against two sums over 2048 — and addition on the extended reals is
  commutative and associative everywhere: no finiteness of the inputs is used. Both sides are shown equal to one
  specification (Spec.lean): the kernel's final arrays (R0Value: the accumulator by induction over the grid;
  R1Value: the gates read at an index, the blocks tiling the arrays) and the reference's results (RefValue).

  The three frames: each kernel program runs its two regions from any memory, the accumulator's contents threaded
  through the first region's invariant, and no region writes an argument (KernelIdeal/Run.lean; Kernel/Run.lean is the
  same argument at the word-level instance); the reference's frame is its run with the results dropped.
  The idealization rewrote nothing, so `preserves` has nothing to state.
-/
import proofs.«115578_j75797582840479_1_alg».proof.Defs
import proofs.«115578_j75797582840479_1_alg».proof.Proof.Gen.Kernel
import proofs.«115578_j75797582840479_1_alg».proof.Proof.Gen.KernelIdeal
import proofs.«115578_j75797582840479_1_alg».proof.Proof.Gen.ReferenceIdeal
import proofs.«115578_j75797582840479_1_alg».proof.Proof.Gen.Pre_finite_inputs
import proofs.«115578_j75797582840479_1_alg».proof.Proof.Gen.ReferenceIdeal.Run
import proofs.«115578_j75797582840479_1_alg».proof.Proof.Gen.ReferenceIdeal.Read
import proofs.«115578_j75797582840479_1_alg».proof.Proof.Kernel.Run
import proofs.«115578_j75797582840479_1_alg».proof.Proof.KernelIdeal.Run
import proofs.«115578_j75797582840479_1_alg».proof.Proof.R0Value
import proofs.«115578_j75797582840479_1_alg».proof.Proof.R1Value
import proofs.«115578_j75797582840479_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_k [hPre : Cert.Pre_finite_inputs.Facts] : Cert.frame_Kernel (hKernel := Cert.Kernel.Gen.facts) :=
  fun m ρ _ => Cert.Kernel.Hand.frame m ρ

/-- So does the idealized kernel. -/
theorem frame_ki [hPre : Cert.Pre_finite_inputs.Facts] : Cert.frame_KernelIdeal (hKernelIdeal := Cert.KernelIdeal.Gen.facts) :=
  fun m ρ _ => Cert.KernelIdeal.Hand.frame m ρ

/-- The reference's frame is its run with the results dropped. -/
theorem frame_ri [hPre : Cert.Pre_finite_inputs.Facts] : Cert.frame_ReferenceIdeal (hReferenceIdeal := Cert.ReferenceIdeal.Gen.facts) :=
  fun m ρ _ => (θ_run Cert.ReferenceIdeal.defs _ _).mono (fun _ h c => (h c).2.2.2)
    (Cert.ReferenceIdeal.Value.run (F := Ideal) m ρ)

/-- Both idealized programs end with the specification's two arrays of the (agreeing) arguments: the new hidden state
    twice and the new cell state. -/
theorem algebraic [hPre : Cert.Pre_finite_inputs.Facts] :
    Cert.algebraic_KernelIdeal_ReferenceIdeal (hKernelIdeal := Cert.KernelIdeal.Gen.facts) (hReferenceIdeal := Cert.ReferenceIdeal.Gen.facts) := by
  intro m ρ m' ρ' _ hagree
  open Cert.KernelIdeal Cert.KernelIdeal.Hand in
  refine ⟨fun c => Cert.Spec.hOf (Cert.Spec.zOf (m ((c.tc : Thread nD τ).loc main_arg0)) (m ((c.tc : Thread nD τ).loc main_arg1)) (m ((c.tc : Thread nD τ).loc main_arg3)) (m ((c.tc : Thread nD τ).loc main_arg4))) (m ((c.tc : Thread nD τ).loc main_arg2)),
    fun c => Cert.Spec.hOf (Cert.Spec.zOf (m ((c.tc : Thread nD τ).loc main_arg0)) (m ((c.tc : Thread nD τ).loc main_arg1)) (m ((c.tc : Thread nD τ).loc main_arg3)) (m ((c.tc : Thread nD τ).loc main_arg4))) (m ((c.tc : Thread nD τ).loc main_arg2)),
    fun c => Cert.Spec.cOf (Cert.Spec.zOf (m ((c.tc : Thread nD τ).loc main_arg0)) (m ((c.tc : Thread nD τ).loc main_arg1)) (m ((c.tc : Thread nD τ).loc main_arg3)) (m ((c.tc : Thread nD τ).loc main_arg4))) (m ((c.tc : Thread nD τ).loc main_arg2)), ?_, ?_⟩
  · -- the kernel: region 1's final arrays over region 0's final pre-activations
    refine (θ_run Cert.KernelIdeal.defs _ _).mono (fun r h c => ?_) (Cert.KernelIdeal.Hand.run_values (F := Ideal) m ρ)
    obtain ⟨hh, hc, ha0, ha1, ha2, ha3, ha4⟩ := h c
    have hz : Cert.KernelIdeal.Hand.V1 m c Cert.KernelIdeal.main_v0
        = Cert.Spec.zOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) :=
      (Cert.KernelIdeal.Hand.V1_z m c).trans (Cert.KernelIdeal.Value0b.final0_z (Cert.KernelIdeal.Hand.V0 m) c)
    have hh' := hh.trans (Cert.KernelIdeal.Value1.final1_h (Cert.KernelIdeal.Hand.V1 m) c)
    have hc' := hc.trans (Cert.KernelIdeal.Value1.final1_c (Cert.KernelIdeal.Hand.V1 m) c)
    rw [hz, Cert.KernelIdeal.Hand.V1_c m c] at hh' hc'
    exact ⟨hh', hh', hc', ha0, ha1, ha2, ha3, ha4⟩
  · -- the reference: its run's terms, stage by stage, are the same arrays of the agreeing arguments
    refine (θ_run Cert.ReferenceIdeal.defs _ _).mono (fun r h c => ?_) (Cert.ReferenceIdeal.Value.run (F := Ideal) m' ρ')
    obtain ⟨hh, hh2, hc, ha0, ha1, ha2, ha3, ha4⟩ := h c
    obtain ⟨e0, e1, e2, e3, e4⟩ := hagree c
    refine ⟨hh.trans ?_, hh2.trans ?_, hc.trans ?_, ha0, ha1, ha2, ha3, ha4⟩
    · rw [Cert.ReferenceIdeal.Read.val_main_v27_eq, Cert.ReferenceIdeal.RefValue.ref_h, e0, e1, e2, e3, e4]
    · rw [Cert.ReferenceIdeal.Read.val_main_v27_eq, Cert.ReferenceIdeal.RefValue.ref_h, e0, e1, e2, e3, e4]
    · rw [Cert.ReferenceIdeal.Read.val_main_v20_eq, Cert.ReferenceIdeal.RefValue.ref_c, e0, e1, e2, e3, e4]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
